-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S8192x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S262144x128 : Shape := ⟨2, ![262144, 128]⟩
abbrev S262144x10 : Shape := ⟨2, ![262144, 10]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S262144x10 : S_.BroadcastsInDim S262144x10 (![] : Fin 0 → Fin S262144x10.rank)
  reducesTo_S262144x10_S_d0_1 : S262144x10.ReducesTo [0, 1] S_

variable [Facts]

def fn {F : FTy → Type} [FloatOps F] (main_arg0 : FVec F S64x128 .f32) (main_arg1 : FVec F S262144x128 .f32) (main_arg2 : FVec F S262144x10 .f32) : IVec S_ 1 :=
  let main_v0 : FVec F S64x128 .f32 := Host.absf main_arg0
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x10 .f32 := Host.absf main_arg2
  let main_cst_2 : FVec F S_ .f32 := constant S_ .f32 0x7F800000#32
  let main_v10 : FVec F S262144x10 .f32 := broadcastInDim S262144x10 ![] bcast_S_S262144x10 main_cst_2
  let main_v11 : IVec S262144x10 1 := cmpf .olt main_v9 main_v10
  let main_c_3 : IVec S_ 1 := constantI S_ 1 1#1
  let main_v12 : IVec S_ 1 := (fun x v => Host.reduce IntOp.andi x v reducesTo_S262144x10_S_d0_1 h_S_) main_v11 main_c_3
  let main_v13 : IVec S_ 1 := andi main_v8 main_v12
  main_v13
-- ==== Kernel.lean ====
abbrev S64x128 : Shape := ⟨2, ![64, 128]⟩
abbrev S262144x128 : Shape := ⟨2, ![262144, 128]⟩
abbrev S262144x10 : Shape := ⟨2, ![262144, 10]⟩
abbrev S64x10 : Shape := ⟨2, ![64, 10]⟩
abbrev S8192x128 : Shape := ⟨2, ![8192, 128]⟩
abbrev S8192x10 : Shape := ⟨2, ![8192, 10]⟩
abbrev S64x1 : Shape := ⟨2, ![64, 1]⟩
abbrev S64x8192 : Shape := ⟨2, ![64, 8192]⟩
abbrev S1x128 : Shape := ⟨2, ![1, 128]⟩
abbrev S1x8192 : Shape := ⟨2, ![1, 8192]⟩
abbrev S64 : Shape := ⟨1, ![64]⟩
abbrev S1x8192x10 : Shape := ⟨3, ![1, 8192, 10]⟩
abbrev S1 : Shape := ⟨1, ![1]⟩
abbrev S1x1x1 : Shape := ⟨3, ![1, 1, 1]⟩
abbrev S1x10 : Shape := ⟨2, ![1, 10]⟩

abbrev nBuf : Space → Nat
  | .hbm => 4
  | .vmem => 9
  | .smem => 0
  | _ => 0

abbrev bufTy : (tb : Table) → Fin (tcTables nBuf tb) → BufTy
  | .hbm, ⟨0, _⟩ => ⟨S64x128, .f32⟩
  | .hbm, ⟨1, _⟩ => ⟨S262144x128, .f32⟩
  | .hbm, ⟨2, _⟩ => ⟨S262144x10, .f32⟩
  | .hbm, ⟨3, _⟩ => ⟨S64x10, .f32⟩
  | .local _ .vmem, ⟨0, _⟩ => ⟨S64x128, .f32⟩
  | .local _ .vmem, ⟨1, _⟩ => ⟨S8192x128, .f32⟩
  | .local _ .vmem, ⟨2, _⟩ => ⟨S8192x128, .f32⟩
  | .local _ .vmem, ⟨3, _⟩ => ⟨S8192x10, .f32⟩
  | .local _ .vmem, ⟨4, _⟩ => ⟨S8192x10, .f32⟩
  | .local _ .vmem, ⟨5, _⟩ => ⟨S64x10, .f32⟩
  | .local _ .vmem, ⟨6, _⟩ => ⟨S64x1, .f32⟩
  | .local _ .vmem, ⟨7, _⟩ => ⟨S64x1, .f32⟩
  | .local _ .vmem, ⟨8, _⟩ => ⟨S64x10, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v61 : BitVec 1 := Scalar.cmpi .eq arg0 c31_i32
  let v62 : BitVec 32 := Scalar.extui v61
  let c0_i32_29 : BitVec 32 := 0#32
  let v63 : BitVec 1 := Scalar.cmpi .ne v62 c0_i32_29
  v63

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S64x128_S64x128_0_0 : ∀ a, (![0, 0] : Fin 2 → Nat) a + S64x128.size a ≤ S64x128.size a
  h_S64x128 : 0 < S64x128.numel
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  broadcasts_S1x8192_S64x8192 : S1x8192.Broadcasts S64x8192
  reduces_S64x8192_S64 : S64x8192.Reduces [1] S64
  shapeCasts_S64_S64x1 : S64.ShapeCasts S64x1
  broadcasts_S64x1_S64x8192 : S64x1.Broadcasts S64x8192
  inb_S8192x10_S8192x10_0_0 : ∀ a, (![0, 0] : Fin 2 → Nat) a + S8192x10.size a ≤ S8192x10.size a
  h_S8192x10 : 0 < S8192x10.numel
  shapeCasts_S8192x10_S1x8192x10 : S8192x10.ShapeCasts S1x8192x10
  reduces_S1x8192x10_S1 : S1x8192x10.Reduces [1, 2] S1
  shapeCasts_S1_S1x1x1 : S1.ShapeCasts S1x1x1
  inpos_S1x1x1_p0_0_0 : ∀ a, (![0, 0, 0] : Fin 3 → Nat) a < S1x1x1.size a
  broadcasts_S64x1_S64x10 : S64x1.Broadcasts S64x10
  dot_S64x128_S8192x128_S64x8192_1_1_0_0_n_n_wf : DotDims.WF S64x128 S8192x128 S64x8192 [1] [1] [0] [0] [] []
  dot_S1x128_S8192x128_S1x8192_1_1_0_0_n_n_wf : DotDims.WF S1x128 S8192x128 S1x8192 [1] [1] [0] [0] [] []
  dot_S1x10_S8192x10_S1x8192_1_1_0_0_n_n_wf : DotDims.WF S1x10 S8192x10 S1x8192 [1] [1] [0] [0] [] []
  dot_S64x8192_S8192x10_S64x10_1_0_0_1_n_n_wf : DotDims.WF S64x8192 S8192x10 S64x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x128.size a
  hwx0_0 : ∀ i : grid0.Coords, EltTy.bits .f32 = 32 ∨ (Rect.block (s := S64x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x10.size a ≤ S262144x10.size a
  hwx0_2 : ∀ i : grid0.Coords, EltTy.bits .f32 = 32 ∨ (Rect.block (s := S262144x10) S8192x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x10.size a ≤ S64x10.size a
  hwx0_3 : ∀ i : grid0.Coords, EltTy.bits .f32 = 32 ∨ (Rect.block (s := S64x10) S64x10.size (cc0_transform_3 i) (hinb0_3 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf
def dot_S1x128_S8192x128_S1x8192_1_1_0_0_n_n : DotDims S1x128 S8192x128 S1x8192 where
  lhsContracting := [1]
  rhsContracting := [1]
  lhsNonContracting := [0]
  rhsNonContracting := [0]
  lhsBatch := []
  rhsBatch := []
  wf := dot_S1x128_S8192x128_S1x8192_1_1_0_0_n_n_wf
def dot_S1x10_S8192x10_S1x8192_1_1_0_0_n_n : DotDims S1x10 S8192x10 S1x8192 where
  lhsContracting := [1]
  rhsContracting := [1]
  lhsNonContracting := [0]
  rhsNonContracting := [0]
  lhsBatch := []
  rhsBatch := []
  wf := dot_S1x10_S8192x10_S1x8192_1_1_0_0_n_n_wf
def dot_S64x8192_S8192x10_S64x10_1_0_0_1_n_n : DotDims S64x8192 S8192x10 S64x10 where
  lhsContracting := [1]
  rhsContracting := [0]
  lhsNonContracting := [0]
  rhsNonContracting := [1]
  lhsBatch := []
  rhsBatch := []
  wf := dot_S64x8192_S8192x10_S64x10_1_0_0_1_n_n_wf

abbrev win0_0 : Pipeline.Window sig grid0 :=
  Pipeline.Window.ofSpec (Memref.whole main_arg0) S64x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x10.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x128 : Shape := ⟨2, ![64, 128]⟩
abbrev S262144x128 : Shape := ⟨2, ![262144, 128]⟩
abbrev S262144x10 : Shape := ⟨2, ![262144, 10]⟩
abbrev S_ : Shape := ⟨0, ![]⟩
abbrev S64 : Shape := ⟨1, ![64]⟩
abbrev S64x1 : Shape := ⟨2, ![64, 1]⟩
abbrev S262144 : Shape := ⟨1, ![262144]⟩
abbrev S128x262144 : Shape := ⟨2, ![128, 262144]⟩
abbrev S64x262144 : Shape := ⟨2, ![64, 262144]⟩
abbrev S1x262144 : Shape := ⟨2, ![1, 262144]⟩
abbrev S262144x1 : Shape := ⟨2, ![262144, 1]⟩
abbrev S64x10 : Shape := ⟨2, ![64, 10]⟩

abbrev nBuf : Space → Nat
  | .hbm => 50
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S262144x128, .f32⟩
  | .hbm, ⟨2, _⟩ => ⟨S262144x10, .f32⟩
  | .hbm, ⟨3, _⟩ => ⟨S64x128, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S262144x128, .f32⟩
  | .hbm, ⟨8, _⟩ => ⟨S_, .f32⟩
  | .hbm, ⟨9, _⟩ => ⟨S262144, .f32⟩
  | .hbm, ⟨10, _⟩ => ⟨S128x262144, .f32⟩
  | .hbm, ⟨11, _⟩ => ⟨S64x262144, .f32⟩
  | .hbm, ⟨12, _⟩ => ⟨S_, .f32⟩
  | .hbm, ⟨13, _⟩ => ⟨S64x262144, .f32⟩
  | .hbm, ⟨14, _⟩ => ⟨S64x262144, .f32⟩
  | .hbm, ⟨15, _⟩ => ⟨S64x262144, .f32⟩
  | .hbm, ⟨16, _⟩ => ⟨S64x262144, .f32⟩
  | .hbm, ⟨17, _⟩ => ⟨S1x262144, .f32⟩
  | .hbm, ⟨18, _⟩ => ⟨S64x262144, .f32⟩
  | .hbm, ⟨19, _⟩ => ⟨S64x262144, .f32⟩
  | .hbm, ⟨20, _⟩ => ⟨S64x262144, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64x1, .f32⟩
  | .hbm, ⟨27, _⟩ => ⟨S64x262144, .f32⟩
  | .hbm, ⟨28, _⟩ => ⟨S64x262144, .f32⟩
  | .hbm, ⟨29, _⟩ => ⟨S64x262144, .f32⟩
  | .hbm, ⟨30, _⟩ => ⟨S_, .f32⟩
  | .hbm, ⟨31, _⟩ => ⟨S64, .f32⟩
  | .hbm, ⟨32, _⟩ => ⟨S64x1, .f32⟩
  | .hbm, ⟨33, _⟩ => ⟨S64x262144, .f32⟩
  | .hbm, ⟨34, _⟩ => ⟨S64x262144, .f32⟩
  | .hbm, ⟨35, _⟩ => ⟨S_, .f32⟩
  | .hbm, ⟨36, _⟩ => ⟨S262144, .f32⟩
  | .hbm, ⟨37, _⟩ => ⟨S_, .f32⟩
  | .hbm, ⟨38, _⟩ => ⟨S262144, .f32⟩
  | .hbm, ⟨39, _⟩ => ⟨S262144, .f32⟩
  | .hbm, ⟨40, _⟩ => ⟨S262144x1, .f32⟩
  | .hbm, ⟨41, _⟩ => ⟨S262144x10, .f32⟩
  | .hbm, ⟨42, _⟩ => ⟨S262144x10, .f32⟩
  | .hbm, ⟨43, _⟩ => ⟨S262144x10, .f32⟩
  | .hbm, ⟨44, _⟩ => ⟨S_, .f32⟩
  | .hbm, ⟨45, _⟩ => ⟨S262144, .f32⟩
  | .hbm, ⟨46, _⟩ => ⟨S262144x1, .f32⟩
  | .hbm, ⟨47, _⟩ => ⟨S262144x10, .f32⟩
  | .hbm, ⟨48, _⟩ => ⟨S262144x10, .f32⟩
  | .hbm, ⟨49, _⟩ => ⟨S64x10, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  reducesTo_S64x128_S64_d1 : S64x128.ReducesTo [1] S64
  h_S_ : 0 < S_.numel
  bcast_S64_S64x1_0 : S64.BroadcastsInDim S64x1 (![0] : Fin 1 → Fin S64x1.rank)
  reducesTo_S262144x128_S262144_d1 : S262144x128.ReducesTo [1] S262144
  transposes_S262144x128_S128x262144_1_0 : S262144x128.Transposes [1, 0] S128x262144
  bcast_S_S64x262144 : S_.BroadcastsInDim S64x262144 (![] : Fin 0 → Fin S64x262144.rank)
  bcast_S64x1_S64x262144_0_1 : S64x1.BroadcastsInDim S64x262144 (![0, 1] : Fin 2 → Fin S64x262144.rank)
  bcast_S262144_S1x262144_1 : S262144.BroadcastsInDim S1x262144 (![1] : Fin 1 → Fin S1x262144.rank)
  bcast_S1x262144_S64x262144_0_1 : S1x262144.BroadcastsInDim S64x262144 (![0, 1] : Fin 2 → Fin S64x262144.rank)
  reducesTo_S64x262144_S64_d1 : S64x262144.ReducesTo [1] S64
  bcast_S_S64 : S_.BroadcastsInDim S64 (![] : Fin 0 → Fin S64.rank)
  reducesTo_S262144x10_S262144_d1 : S262144x10.ReducesTo [1] S262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x10_0_1 : S262144x1.BroadcastsInDim S262144x10 (![0, 1] : Fin 2 → Fin S262144x10.rank)
  dot_S64x128_S128x262144_S64x262144_1_0_0_1_n_n_wf : DotDims.WF S64x128 S128x262144 S64x262144 [1] [0] [0] [1] [] []
  dot_S64x262144_S262144x10_S64x10_1_0_0_1_n_n_wf : DotDims.WF S64x262144 S262144x10 S64x10 [1] [0] [0] [1] [] []

variable [Facts₀]

def dot_S64x128_S128x262144_S64x262144_1_0_0_1_n_n : DotDims S64x128 S128x262144 S64x262144 where
  lhsContracting := [1]
  rhsContracting := [0]
  lhsNonContracting := [0]
  rhsNonContracting := [1]
  lhsBatch := []
  rhsBatch := []
  wf := dot_S64x128_S128x262144_S64x262144_1_0_0_1_n_n_wf
def dot_S64x262144_S262144x10_S64x10_1_0_0_1_n_n : DotDims S64x262144 S262144x10 S64x10 where
  lhsContracting := [1]
  rhsContracting := [0]
  lhsNonContracting := [0]
  rhsNonContracting := [1]
  lhsBatch := []
  rhsBatch := []
  wf := dot_S64x262144_S262144x10_S64x10_1_0_0_1_n_n_wf

class Facts : Prop extends Facts₀ where

variable [Facts]
-- ==== Proof.Spec.lean ====
/-
  The mathematics both programs compute, over the REALS (the precondition makes every input entry a real number).

  For an input row `b` and a neuron `n` the SCORE is `s b n = 2·⟨x_b, w_n⟩ − ‖w_n‖²`; the squared distance is
  `‖x_b‖² − s b n`, and a softmax over `n` does not see the row constant `‖x_b‖²`. The label distribution of neuron
  `n` is the softmax of its ten label logits, `prob n c = e^{l n c} / Σ_c' e^{l n c'}`. The result is the
  softmax-weighted mixture `out b c = (Σ_n e^{s b n} · prob n c) / Σ_n e^{s b n}` — written with NO maximum
  subtracted: a softmax is invariant under a common real shift of its exponents, so any real shift a program chooses
  (a row maximum, a running maximum, a tile maximum) gives this same number.

  The 262144 neurons are read in 32 tiles of 8192: neuron `8192·u + j` is `tileIdx u j`.
-/
import Idealize.ShloMosaic.PureOps.Ideal
import Idealize.ShloMosaic.Lib.ValueIdx

noncomputable section

namespace Cert.Som

open Idealize.ShloMosaic Idealize.ShloMosaic.ValueIdx

abbrev SX : Shape := ⟨2, ![64, 128]⟩
abbrev SW : Shape := ⟨2, ![262144, 128]⟩
abbrev SL : Shape := ⟨2, ![262144, 10]⟩
abbrev SO : Shape := ⟨2, ![64, 10]⟩

/-- A real array read as an array of extended reals. -/
def up {s : Shape} (f : s.Idx → ℝ) : s.Idx → EReal := fun i => ((f i : ℝ) : EReal)

theorem up_apply {s : Shape} (f : s.Idx → ℝ) (i : s.Idx) : up f i = ((f i : ℝ) : EReal) := rfl

/-- Neuron `8192·u + j`: row `j` of tile `u` (reduced mod 262144 so that it is total in `u`; for `u < 32` nothing is reduced). -/
def tileIdx (u : ℕ) (j : Fin 8192) : Fin 262144 := ⟨(8192 * u + j.val) % 262144, Nat.mod_lt _ (by norm_num)⟩

theorem tileIdx_val (u : ℕ) (hu : u < 32) (j : Fin 8192) : (tileIdx u j).val = 8192 * u + j.val := by
  have := j.isLt
  show (8192 * u + j.val) % 262144 = _
  exact Nat.mod_eq_of_lt (by omega)

variable (xr : SX.Idx → ℝ) (wr : SW.Idx → ℝ) (lr : SL.Idx → ℝ)

/-- The score of neuron `n` for input row `b`: `2·⟨x_b, w_n⟩ − ‖w_n‖²`. -/
def score (b : Fin 64) (n : Fin 262144) : ℝ :=
  2 * (∑ d : Fin 128, xr (ix2 b d) * wr (ix2 n d)) - ∑ d : Fin 128, wr (ix2 n d) * wr (ix2 n d)

/-- The label distribution of neuron `n`: the softmax of its ten logits. -/
def prob (n : Fin 262144) (c : Fin 10) : ℝ :=
  Real.exp (lr (ix2 n c)) / ∑ c' : Fin 10, Real.exp (lr (ix2 n c'))

/-- The result: the mixture of the label distributions under the softmax of the scores. -/
def out (b : Fin 64) (c : Fin 10) : ℝ :=
  (∑ n : Fin 262144, Real.exp (score xr wr b n) * prob lr n c) / ∑ n : Fin 262144, Real.exp (score xr wr b n)

end Cert.Som

end
-- ==== Proof.RealAlg.lean ====
/-
  Real-number facts about softmax-weighted sums, used on both sides.

  * A sum of real numbers read in the extended reals is the sum of the readings (`coe_sum`).
  * RESCALING: with weights `e^{a − M}`, changing the common shift `M` to `M'` multiplies every weight by `e^{M − M'}`
    (`rescale`): this is the whole content of the running-maximum update, which keeps
    `D = Σ e^{s − M}` and `A = Σ e^{s − M}·p` current by multiplying the old values by `e^{M_old − M_new}`.
  * A ratio `(Σ e^{a − M}·p) / (Σ e^{a − M})` does not depend on `M` (`ratio_shift`), and the normalized form
    `Σ (e^{a} / Σ e^{a'})·p` is the same ratio (`normalized_eq_ratio`).
  * The 32 tiles of 8192 neurons exhaust the 262144 neurons, each once (`sum_tiles`).
-/
import proofs.«168898_g67370857005486_cont_9to1_m_986_7_alg».proof.Proof.Spec
import Mathlib.Algebra.BigOperators.Fin
import Mathlib.Analysis.SpecialFunctions.Exp

noncomputable section

namespace Cert.Som

open Finset

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Changing the common shift of exponential weights from `M` to `M'` multiplies the weighted sum by `e^{M − M'}`. -/
theorem rescale {ι : Type*} (s : Finset ι) (a g : ι → ℝ) (M M' : ℝ) :
    (∑ i ∈ s, Real.exp (a i - M) * g i) * Real.exp (M - M') = ∑ i ∈ s, Real.exp (a i - M') * g i := by
  rw [Finset.sum_mul]
  refine Finset.sum_congr rfl fun i _ => ?_
  have : Real.exp (a i - M') = Real.exp (a i - M) * Real.exp (M - M') := by rw [← Real.exp_add]; ring_nf
  rw [this]; ring

/-- A softmax-weighted mean does not see the common shift of its exponents. -/
theorem ratio_shift {ι : Type*} (s : Finset ι) (hs : s.Nonempty) (a p : ι → ℝ) (M : ℝ) :
    (∑ i ∈ s, Real.exp (a i - M) * p i) / (∑ i ∈ s, Real.exp (a i - M)) = (∑ i ∈ s, Real.exp (a i) * p i) / (∑ i ∈ s, Real.exp (a i)) := by
  have h1 := rescale s a p 0 M
  have h2 := rescale s a (fun _ => 1) 0 M
  simp only [sub_zero, mul_one, zero_sub] at h1 h2
  rw [← h1, ← h2, mul_div_mul_right _ _ (Real.exp_pos _).ne']

/-- The normalized weights `e^{a} / Σ e^{a'}` give the same mean as the ratio of the two sums. -/
theorem normalized_eq_ratio {ι : Type*} (s : Finset ι) (a p : ι → ℝ) :
    ∑ i ∈ s, (Real.exp (a i) / ∑ i' ∈ s, Real.exp (a i')) * p i = (∑ i ∈ s, Real.exp (a i) * p i) / (∑ i ∈ s, Real.exp (a i)) := by
  rw [Finset.sum_div]
  exact Finset.sum_congr rfl fun i _ => by ring

/-- The 32 tiles of 8192 neurons are the 262144 neurons, each once. -/
theorem sum_tiles (f : Fin 262144 → ℝ) : ∑ u ∈ Finset.range 32, ∑ j : Fin 8192, f (tileIdx u j) = ∑ n : Fin 262144, f n := by
  rw [Finset.sum_range (fun u => ∑ j : Fin 8192, f (tileIdx u j))]
  rw [← Finset.sum_product' (Finset.univ : Finset (Fin 32)) (Finset.univ : Finset (Fin 8192)) (fun u j => f (tileIdx u.val j))]
  rw [Finset.univ_product_univ]
  refine Fintype.sum_equiv (finProdFinEquiv.trans (finCongr (by norm_num : 32 * 8192 = 262144))) _ _ fun p => ?_
  obtain ⟨u, j⟩ := p
  refine congrArg f (Fin.ext ?_)
  rw [tileIdx_val u.val u.isLt j]
  simp [finProdFinEquiv]
  omega

end Cert.Som

end
-- ==== Proof.Pieces.lean ====
/-
  What each control case of the kernel's body leaves behind, as the body's arithmetic.

  The body runs in one of three ways: at the first grid point (the three carried buffers — running maximum, running
  denominator, running accumulator — are reset to −∞, 0, 0 and then updated), at a middle point (updated from what the
  point before left), and at the last point (updated, then the output block is stored as accumulator over
  denominator). In every case each buffer ends holding ONE whole-buffer value of the body's arithmetic on the three
  input blocks and the previous buffers; the theorems below name those values, for any float instance.
-/
import proofs.«168898_g67370857005486_cont_9to1_m_986_7_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- The origin of a rank-two block, as the constant-zero coordinate function. -/
theorem hz : (![0, 0] : Fin 2 → Nat) = fun _ => 0 := funext fun a => by fin_cases a <;> rfl

/-- The running maximum left by the first grid point (scratch reset, then updated), as the body's payload functions. -/
theorem sA0 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S8192x10 .f32) (harg3 : arg3.IsWhole) (arg4 : Memref sig .tc .vmem S64x10 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x10 .f32) (harg7 : arg7.IsWhole) (hc0 : cond0_0 i) (hc1 : ¬cond0_1 i)
    (x0 : Vec F S64x128 .f32) (x1 : Vec F S8192x128 .f32) (x2 : Vec F S8192x10 .f32) :
    sout0_A_0 c i arg1 harg1 arg2 harg2 arg3 harg3 arg4 harg4 arg5 harg5 arg6 harg6 arg7 harg7 hc0 hc1 x0 x1 x2 = k0_pay3 (k0_pay9 x0 x1 k0_pay5) := by
  unfold sout0_A_0
  rw [View.read_writes_eq_canon _ _ _ (scover0_A_0 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero (S := S64x1) hz]
  simp only [View.readAt_eq_ld, harg1.read_unread, harg2.read_unread, harg3.read_unread, harg5.read_unread, harg6.read_unread, harg7.read_unread, View.ld_unit_zero (S := S64x1) hz, View.ld_unit_zero (S := S64x128) hz, View.ld_unit_zero (S := S8192x128) hz, View.ld_unit_zero (S := S8192x10) hz, View.ld_unit_zero (S := S64x10) hz, View.readCov_unit_zero (S := S64x1) _ hz, View.readCov_unit_zero (S := S64x10) _ hz]

/-- The running denominator left by the first grid point (scratch reset, then updated), as the body's payload functions. -/
theorem sA1 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S8192x10 .f32) (harg3 : arg3.IsWhole) (arg4 : Memref sig .tc .vmem S64x10 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x10 .f32) (harg7 : arg7.IsWhole) (hc0 : cond0_0 i) (hc1 : ¬cond0_1 i)
    (x0 : Vec F S64x128 .f32) (x1 : Vec F S8192x128 .f32) (x2 : Vec F S8192x10 .f32) :
    sout0_A_1 c i arg1 harg1 arg2 harg2 arg3 harg3 arg4 harg4 arg5 harg5 arg6 harg6 arg7 harg7 hc0 hc1 x0 x1 x2 = k0_pay1 (k0_pay10 x0 x1 k0_pay5) (k0_pay11 x0 x1 k0_pay5) k0_pay6 := by
  unfold sout0_A_1
  rw [View.read_writes_eq_canon _ _ _ (scover0_A_1 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero (S := S64x1) hz]
  simp only [View.readAt_eq_ld, harg1.read_unread, harg2.read_unread, harg3.read_unread, harg5.read_unread, harg6.read_unread, harg7.read_unread, View.ld_unit_zero (S := S64x1) hz, View.ld_unit_zero (S := S64x128) hz, View.ld_unit_zero (S := S8192x128) hz, View.ld_unit_zero (S := S8192x10) hz, View.ld_unit_zero (S := S64x10) hz, View.readCov_unit_zero (S := S64x1) _ hz, View.readCov_unit_zero (S := S64x10) _ hz]

/-- The running accumulator left by the first grid point (scratch reset, then updated), as the body's payload functions. -/
theorem sA2 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S8192x10 .f32) (harg3 : arg3.IsWhole) (arg4 : Memref sig .tc .vmem S64x10 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x10 .f32) (harg7 : arg7.IsWhole) (hc0 : cond0_0 i) (hc1 : ¬cond0_1 i)
    (x0 : Vec F S64x128 .f32) (x1 : Vec F S8192x128 .f32) (x2 : Vec F S8192x10 .f32) :
    sout0_A_2 c i arg1 harg1 arg2 harg2 arg3 harg3 arg4 harg4 arg5 harg5 arg6 harg6 arg7 harg7 hc0 hc1 x0 x1 x2 = k0_pay2 (k0_pay10 x0 x1 k0_pay5) (k0_pay11 x0 x1 k0_pay5) (k0_pay12 x2) (k0_pay13 x2) (Scalar.ofBits .f32 0x3F800000#32) k0_pay7 := by
  unfold sout0_A_2
  rw [View.read_writes_eq_canon _ _ _ (scover0_A_2 c i arg1 harg1 arg2 harg2 arg3 harg3 arg4 harg4 arg5 harg5 arg6 harg6 arg7 harg7 hc0 hc1 x0 x1 x2)]
  unfold kernelRun0_A
  dsimp only
  sl_unfold_words
  rw [View.canon_cons_unit_zero (S := S64x10) hz]
  simp only [View.readAt_eq_ld, harg1.read_unread, harg2.read_unread, harg3.read_unread, harg5.read_unread, harg6.read_unread, harg7.read_unread, View.ld_unit_zero (S := S64x1) hz, View.ld_unit_zero (S := S64x128) hz, View.ld_unit_zero (S := S8192x128) hz, View.ld_unit_zero (S := S8192x10) hz, View.ld_unit_zero (S := S64x10) hz, View.readCov_unit_zero (S := S64x1) _ hz, View.readCov_unit_zero (S := S64x10) _ hz]

/-- The running maximum left by a middle grid point, as the body's payload functions. -/
theorem sB0 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S8192x10 .f32) (harg3 : arg3.IsWhole) (arg4 : Memref sig .tc .vmem S64x10 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x10 .f32) (harg7 : arg7.IsWhole) (hc0 : ¬cond0_0 i) (hc1 : ¬cond0_1 i)
    (x0 : Vec F S64x128 .f32) (x1 : Vec F S8192x128 .f32) (x2 : Vec F S8192x10 .f32) (xs0 : Vec F S64x1 .f32) (xs1 : Vec F S64x1 .f32) (xs2 : Vec F S64x10 .f32) :
    sout0_B_0 c i arg1 harg1 arg2 harg2 arg3 harg3 arg4 harg4 arg5 harg5 arg6 harg6 arg7 harg7 hc0 hc1 x0 x1 x2 xs0 xs1 xs2 = k0_pay3 (k0_pay9 x0 x1 xs0) := by
  unfold sout0_B_0
  rw [View.read_writes_eq_canon _ _ _ (scover0_B_0 c i arg1 harg1 arg2 harg2 arg3 harg3 arg4 harg4 arg5 harg5 arg6 harg6 arg7 harg7 hc0 hc1 x0 x1 x2 xs0 xs1 xs2)]
  unfold kernelRun0_B
  dsimp only
  sl_unfold_words
  rw [View.canon_unit_zero hz]
  simp only [View.readAt_eq_ld, harg1.read_unread, harg2.read_unread, harg3.read_unread, harg5.read_unread, harg6.read_unread, harg7.read_unread, View.ld_unit_zero (S := S64x1) hz, View.ld_unit_zero (S := S64x128) hz, View.ld_unit_zero (S := S8192x128) hz, View.ld_unit_zero (S := S8192x10) hz, View.ld_unit_zero (S := S64x10) hz]

/-- The running denominator left by a middle grid point, as the body's payload functions. -/
theorem sB1 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S8192x10 .f32) (harg3 : arg3.IsWhole) (arg4 : Memref sig .tc .vmem S64x10 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x10 .f32) (harg7 : arg7.IsWhole) (hc0 : ¬cond0_0 i) (hc1 : ¬cond0_1 i)
    (x0 : Vec F S64x128 .f32) (x1 : Vec F S8192x128 .f32) (x2 : Vec F S8192x10 .f32) (xs0 : Vec F S64x1 .f32) (xs1 : Vec F S64x1 .f32) (xs2 : Vec F S64x10 .f32) :
    sout0_B_1 c i arg1 harg1 arg2 harg2 arg3 harg3 arg4 harg4 arg5 harg5 arg6 harg6 arg7 harg7 hc0 hc1 x0 x1 x2 xs0 xs1 xs2 = k0_pay1 (k0_pay10 x0 x1 xs0) (k0_pay11 x0 x1 xs0) xs1 := by
  unfold sout0_B_1
  rw [View.read_writes_eq_canon _ _ _ (scover0_B_1 c i arg1 harg1 arg2 harg2 arg3 harg3 arg4 harg4 arg5 harg5 arg6 harg6 arg7 harg7 hc0 hc1 x0 x1 x2 xs0 xs1 xs2)]
  unfold kernelRun0_B
  dsimp only
  sl_unfold_words
  rw [View.canon_unit_zero hz]
  simp only [View.readAt_eq_ld, harg1.read_unread, harg2.read_unread, harg3.read_unread, harg5.read_unread, harg6.read_unread, harg7.read_unread, View.ld_unit_zero (S := S64x1) hz, View.ld_unit_zero (S := S64x128) hz, View.ld_unit_zero (S := S8192x128) hz, View.ld_unit_zero (S := S8192x10) hz, View.ld_unit_zero (S := S64x10) hz]

/-- The running accumulator left by a middle grid point, as the body's payload functions. -/
theorem sB2 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S8192x10 .f32) (harg3 : arg3.IsWhole) (arg4 : Memref sig .tc .vmem S64x10 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x10 .f32) (harg7 : arg7.IsWhole) (hc0 : ¬cond0_0 i) (hc1 : ¬cond0_1 i)
    (x0 : Vec F S64x128 .f32) (x1 : Vec F S8192x128 .f32) (x2 : Vec F S8192x10 .f32) (xs0 : Vec F S64x1 .f32) (xs1 : Vec F S64x1 .f32) (xs2 : Vec F S64x10 .f32) :
    sout0_B_2 c i arg1 harg1 arg2 harg2 arg3 harg3 arg4 harg4 arg5 harg5 arg6 harg6 arg7 harg7 hc0 hc1 x0 x1 x2 xs0 xs1 xs2 = k0_pay2 (k0_pay10 x0 x1 xs0) (k0_pay11 x0 x1 xs0) (k0_pay12 x2) (k0_pay13 x2) (Scalar.ofBits .f32 0x3F800000#32) xs2 := by
  unfold sout0_B_2
  rw [View.read_writes_eq_canon _ _ _ (scover0_B_2 c i arg1 harg1 arg2 harg2 arg3 harg3 arg4 harg4 arg5 harg5 arg6 harg6 arg7 harg7 hc0 hc1 x0 x1 x2 xs0 xs1 xs2)]
  unfold kernelRun0_B
  dsimp only
  sl_unfold_words
  rw [View.canon_unit_zero hz]
  simp only [View.readAt_eq_ld, harg1.read_unread, harg2.read_unread, harg3.read_unread, harg5.read_unread, harg6.read_unread, harg7.read_unread, View.ld_unit_zero (S := S64x1) hz, View.ld_unit_zero (S := S64x128) hz, View.ld_unit_zero (S := S8192x128) hz, View.ld_unit_zero (S := S8192x10) hz, View.ld_unit_zero (S := S64x10) hz]

/-- The running maximum left by the last grid point, as the body's payload functions. -/
theorem sC0 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S8192x10 .f32) (harg3 : arg3.IsWhole) (arg4 : Memref sig .tc .vmem S64x10 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x10 .f32) (harg7 : arg7.IsWhole) (hc0 : ¬cond0_0 i) (hc1 : cond0_1 i)
    (x0 : Vec F S64x128 .f32) (x1 : Vec F S8192x128 .f32) (x2 : Vec F S8192x10 .f32) (xs0 : Vec F S64x1 .f32) (xs1 : Vec F S64x1 .f32) (xs2 : Vec F S64x10 .f32) :
    sout0_C_0 c i arg1 harg1 arg2 harg2 arg3 harg3 arg4 harg4 arg5 harg5 arg6 harg6 arg7 harg7 hc0 hc1 x0 x1 x2 xs0 xs1 xs2 = k0_pay3 (k0_pay9 x0 x1 xs0) := by
  unfold sout0_C_0
  rw [View.read_writes_eq_canon _ _ _ (scover0_C_0 c i arg1 harg1 arg2 harg2 arg3 harg3 arg4 harg4 arg5 harg5 arg6 harg6 arg7 harg7 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg5.read_unread, harg6.read_unread, harg7.read_unread, View.ld_unit_zero (S := S64x1) hz, View.ld_unit_zero (S := S64x128) hz, View.ld_unit_zero (S := S8192x128) hz, View.ld_unit_zero (S := S8192x10) hz, View.ld_unit_zero (S := S64x10) hz]

/-- The running denominator left by the last grid point, as the body's payload functions. -/
theorem sC1 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S8192x10 .f32) (harg3 : arg3.IsWhole) (arg4 : Memref sig .tc .vmem S64x10 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x10 .f32) (harg7 : arg7.IsWhole) (hc0 : ¬cond0_0 i) (hc1 : cond0_1 i)
    (x0 : Vec F S64x128 .f32) (x1 : Vec F S8192x128 .f32) (x2 : Vec F S8192x10 .f32) (xs0 : Vec F S64x1 .f32) (xs1 : Vec F S64x1 .f32) (xs2 : Vec F S64x10 .f32) :
    sout0_C_1 c i arg1 harg1 arg2 harg2 arg3 harg3 arg4 harg4 arg5 harg5 arg6 harg6 arg7 harg7 hc0 hc1 x0 x1 x2 xs0 xs1 xs2 = k0_pay1 (k0_pay10 x0 x1 xs0) (k0_pay11 x0 x1 xs0) xs1 := by
  unfold sout0_C_1
  rw [View.read_writes_eq_canon _ _ _ (scover0_C_1 c i arg1 harg1 arg2 harg2 arg3 harg3 arg4 harg4 arg5 harg5 arg6 harg6 arg7 harg7 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg5.read_unread, harg6.read_unread, harg7.read_unread, View.ld_unit_zero (S := S64x1) hz, View.ld_unit_zero (S := S64x128) hz, View.ld_unit_zero (S := S8192x128) hz, View.ld_unit_zero (S := S8192x10) hz, View.ld_unit_zero (S := S64x10) hz]

/-- The running accumulator left by the last grid point, as the body's payload functions. -/
theorem sC2 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S8192x10 .f32) (harg3 : arg3.IsWhole) (arg4 : Memref sig .tc .vmem S64x10 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x10 .f32) (harg7 : arg7.IsWhole) (hc0 : ¬cond0_0 i) (hc1 : cond0_1 i)
    (x0 : Vec F S64x128 .f32) (x1 : Vec F S8192x128 .f32) (x2 : Vec F S8192x10 .f32) (xs0 : Vec F S64x1 .f32) (xs1 : Vec F S64x1 .f32) (xs2 : Vec F S64x10 .f32) :
    sout0_C_2 c i arg1 harg1 arg2 harg2 arg3 harg3 arg4 harg4 arg5 harg5 arg6 harg6 arg7 harg7 hc0 hc1 x0 x1 x2 xs0 xs1 xs2 = k0_pay2 (k0_pay10 x0 x1 xs0) (k0_pay11 x0 x1 xs0) (k0_pay12 x2) (k0_pay13 x2) (Scalar.ofBits .f32 0x3F800000#32) xs2 := by
  unfold sout0_C_2
  rw [View.read_writes_eq_canon _ _ _ (scover0_C_2 c i arg1 harg1 arg2 harg2 arg3 harg3 arg4 harg4 arg5 harg5 arg6 harg6 arg7 harg7 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg5.read_unread, harg6.read_unread, harg7.read_unread, View.ld_unit_zero (S := S64x1) hz, View.ld_unit_zero (S := S64x128) hz, View.ld_unit_zero (S := S8192x128) hz, View.ld_unit_zero (S := S8192x10) hz, View.ld_unit_zero (S := S64x10) hz]

/-- The output block stored at the last grid point: the updated accumulator over the updated denominator. -/
theorem oC3 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S8192x10 .f32) (harg3 : arg3.IsWhole) (arg4 : Memref sig .tc .vmem S64x10 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x10 .f32) (harg7 : arg7.IsWhole) (hc0 : ¬cond0_0 i) (hc1 : cond0_1 i)
    (x0 : Vec F S64x128 .f32) (x1 : Vec F S8192x128 .f32) (x2 : Vec F S8192x10 .f32) (xs0 : Vec F S64x1 .f32) (xs1 : Vec F S64x1 .f32) (xs2 : Vec F S64x10 .f32) :
    out0_C_3 c i arg1 harg1 arg2 harg2 arg3 harg3 arg4 harg4 arg5 harg5 arg6 harg6 arg7 harg7 hc0 hc1 x0 x1 x2 xs0 xs1 xs2 = k0_pay4 (k0_pay2 (k0_pay10 x0 x1 xs0) (k0_pay11 x0 x1 xs0) (k0_pay12 x2) (k0_pay13 x2) (Scalar.ofBits .f32 0x3F800000#32) xs2) (k0_pay1 (k0_pay10 x0 x1 xs0) (k0_pay11 x0 x1 xs0) xs1) := by
  unfold out0_C_3
  rw [View.read_writes_eq_canon _ _ _ (cover0_C_3 c i arg1 harg1 arg2 harg2 arg3 harg3 arg4 harg4 arg5 harg5 arg6 harg6 arg7 harg7 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg5.read_unread, harg6.read_unread, harg7.read_unread, View.ld_unit_zero (S := S64x1) hz, View.ld_unit_zero (S := S64x128) hz, View.ld_unit_zero (S := S8192x128) hz, View.ld_unit_zero (S := S8192x10) hz, View.ld_unit_zero (S := S64x10) hz, View.readCov_unit_zero (S := S64x1) _ hz, View.readCov_unit_zero (S := S64x10) _ hz]

end Cert.KernelIdeal.Pieces
end
-- ==== Proof.PayScore.lean ====
/-
  The score side of the kernel's body, read at an index over the extended reals.

  A tile's scores are 2·x·wᵀ − (1·(w∘w)ᵀ + 1·(w∘w − w∘w)ᵀ): three contractions into zero accumulators, the squared norm
  split into a part kept through a narrower format (the identity on extended reals) and the remainder (zero on real
  entries). On real entries the score at (b, j) is the real 2·⟨x_b, w_j⟩ − ‖w_j‖². The new running maximum is the
  maximum of the old one with the row maximum of the scores, a maximum of 8192 reals and so a real; the weights and the
  correction factor are exponentials of differences against it.
-/
import proofs.«168898_g67370857005486_cont_9to1_m_986_7_alg».proof.Proof.Gen.KernelIdeal.Frame
import proofs.«168898_g67370857005486_cont_9to1_m_986_7_alg».proof.Proof.Spec
import Idealize.ShloMosaic.Lib.ValueIdx
import Idealize.ShloMosaic.Lib.Pipeline.Value
import Idealize.ShloMosaic.PureOps.Ideal.Laws

noncomputable section

namespace Cert.KernelIdeal.PayScore

open Cert.KernelIdeal Cert.KernelIdeal.Gen Cert.Som Idealize.ShloMosaic Idealize.ShloMosaic.ValueIdx

/-! ## The two contractions read at an index -/

theorem lhs_xw_0 (i : S64x8192.Idx) (q : dot_S64x128_S8192x128_S64x8192_1_1_0_0_n_n.contr.Idx) :
    (dot_S64x128_S8192x128_S64x8192_1_1_0_0_n_n.lhsIdx i q 0).val = (i 0).val := by
  unfold DotDims.lhsIdx
  rw [dif_neg (show ¬(0 : Fin S64x128.rank) ∈ dot_S64x128_S8192x128_S64x8192_1_1_0_0_n_n.lhsBatch by decide), dif_pos (show (0 : Fin S64x128.rank) ∈ dot_S64x128_S8192x128_S64x8192_1_1_0_0_n_n.lhsNonContracting by decide)]
  rfl
theorem lhs_xw_1 (i : S64x8192.Idx) (q : dot_S64x128_S8192x128_S64x8192_1_1_0_0_n_n.contr.Idx) :
    (dot_S64x128_S8192x128_S64x8192_1_1_0_0_n_n.lhsIdx i q 1).val = (q ⟨0, by decide⟩).val :=
  dot_S64x128_S8192x128_S64x8192_1_1_0_0_n_n.lhsIdx_val_of_single rfl i q
theorem rhs_xw_0 (i : S64x8192.Idx) (q : dot_S64x128_S8192x128_S64x8192_1_1_0_0_n_n.contr.Idx) :
    (dot_S64x128_S8192x128_S64x8192_1_1_0_0_n_n.rhsIdx i q 0).val = (i 1).val := by
  unfold DotDims.rhsIdx
  rw [dif_neg (show ¬(0 : Fin S8192x128.rank) ∈ dot_S64x128_S8192x128_S64x8192_1_1_0_0_n_n.rhsBatch by decide), dif_pos (show (0 : Fin S8192x128.rank) ∈ dot_S64x128_S8192x128_S64x8192_1_1_0_0_n_n.rhsNonContracting by decide)]
  rfl
theorem rhs_xw_1 (i : S64x8192.Idx) (q : dot_S64x128_S8192x128_S64x8192_1_1_0_0_n_n.contr.Idx) :
    (dot_S64x128_S8192x128_S64x8192_1_1_0_0_n_n.rhsIdx i q 1).val = (q ⟨0, by decide⟩).val :=
  dot_S64x128_S8192x128_S64x8192_1_1_0_0_n_n.rhsIdx_val_of_single rfl i q

/-- The product of a `64 × 128` block with the transpose of an `8192 × 128` block, accumulated into zero: entry `(b, j)`
    is the inner product of row `b` with row `j`. -/
theorem matmul_xw_apply {φ₁ φ₂ : FTy} (x0 : FVec Ideal S64x128 φ₁) (x1 : FVec Ideal S8192x128 φ₂) (b : Fin 64) (j : Fin 8192) :
    matmul dot_S64x128_S8192x128_S64x8192_1_1_0_0_n_n none x0 x1 (constant (F := Ideal) S64x8192 .f32 0x00000000#32) (ix2 b j)
      = ∑ k : Fin 128, x0 (ix2 b k) * x1 (ix2 j k) := by
  simp only [matmul]
  rw [Ideal.matmul_constant_zero_apply, ← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 b j) ((contrEquiv1 dot_S64x128_S8192x128_S64x8192_1_1_0_0_n_n 128 rfl rfl).symm k) = ix2 b k := funext fun a => Fin.ext (by
    match a with
    | ⟨0, _⟩ => exact lhs_xw_0 _ _
    | ⟨1, _⟩ => exact (lhs_xw_1 _ _).trans hk)
  have er : dot_S64x128_S8192x128_S64x8192_1_1_0_0_n_n.rhsIdx (ix2 b j) ((contrEquiv1 dot_S64x128_S8192x128_S64x8192_1_1_0_0_n_n 128 rfl rfl).symm k) = ix2 j k := funext fun a => Fin.ext (by
    match a with
    | ⟨0, _⟩ => exact rhs_xw_0 _ _
    | ⟨1, _⟩ => exact (rhs_xw_1 _ _).trans hk)
  rw [el, er]

theorem lhs_ow_0 (i : S1x8192.Idx) (q : dot_S1x128_S8192x128_S1x8192_1_1_0_0_n_n.contr.Idx) :
    (dot_S1x128_S8192x128_S1x8192_1_1_0_0_n_n.lhsIdx i q 0).val = (i 0).val := by
  unfold DotDims.lhsIdx
  rw [dif_neg (show ¬(0 : Fin S1x128.rank) ∈ dot_S1x128_S8192x128_S1x8192_1_1_0_0_n_n.lhsBatch by decide), dif_pos (show (0 : Fin S1x128.rank) ∈ dot_S1x128_S8192x128_S1x8192_1_1_0_0_n_n.lhsNonContracting by decide)]
  rfl
theorem lhs_ow_1 (i : S1x8192.Idx) (q : dot_S1x128_S8192x128_S1x8192_1_1_0_0_n_n.contr.Idx) :
    (dot_S1x128_S8192x128_S1x8192_1_1_0_0_n_n.lhsIdx i q 1).val = (q ⟨0, by decide⟩).val :=
  dot_S1x128_S8192x128_S1x8192_1_1_0_0_n_n.lhsIdx_val_of_single rfl i q
theorem rhs_ow_0 (i : S1x8192.Idx) (q : dot_S1x128_S8192x128_S1x8192_1_1_0_0_n_n.contr.Idx) :
    (dot_S1x128_S8192x128_S1x8192_1_1_0_0_n_n.rhsIdx i q 0).val = (i 1).val := by
  unfold DotDims.rhsIdx
  rw [dif_neg (show ¬(0 : Fin S8192x128.rank) ∈ dot_S1x128_S8192x128_S1x8192_1_1_0_0_n_n.rhsBatch by decide), dif_pos (show (0 : Fin S8192x128.rank) ∈ dot_S1x128_S8192x128_S1x8192_1_1_0_0_n_n.rhsNonContracting by decide)]
  rfl
theorem rhs_ow_1 (i : S1x8192.Idx) (q : dot_S1x128_S8192x128_S1x8192_1_1_0_0_n_n.contr.Idx) :
    (dot_S1x128_S8192x128_S1x8192_1_1_0_0_n_n.rhsIdx i q 1).val = (q ⟨0, by decide⟩).val :=
  dot_S1x128_S8192x128_S1x8192_1_1_0_0_n_n.rhsIdx_val_of_single rfl i q

/-- The product of a `1 × 128` row with the transpose of an `8192 × 128` block, accumulated into zero: entry `(0, j)`
    is the inner product of the row with row `j`. -/
theorem matmul_ow_apply {φ₁ φ₂ : FTy} (x0 : FVec Ideal S1x128 φ₁) (x1 : FVec Ideal S8192x128 φ₂) (a : Fin 1) (j : Fin 8192) :
    matmul dot_S1x128_S8192x128_S1x8192_1_1_0_0_n_n none x0 x1 (constant (F := Ideal) S1x8192 .f32 0x00000000#32) (ix2 a j)
      = ∑ k : Fin 128, x0 (ix2 a k) * x1 (ix2 j k) := by
  simp only [matmul]
  rw [Ideal.matmul_constant_zero_apply, ← Equiv.sum_comp (contrEquiv1 dot_S1x128_S8192x128_S1x8192_1_1_0_0_n_n 128 rfl rfl).symm]
  refine Finset.sum_congr rfl fun k _ => ?_
  have hk := contrEquiv1_symm_val dot_S1x128_S8192x128_S1x8192_1_1_0_0_n_n 128 rfl rfl k
  have el : dot_S1x128_S8192x128_S1x8192_1_1_0_0_n_n.lhsIdx (ix2 a j) ((contrEquiv1 dot_S1x128_S8192x128_S1x8192_1_1_0_0_n_n 128 rfl rfl).symm k) = ix2 a k := funext fun c => Fin.ext (by
    match c with
    | ⟨0, _⟩ => exact lhs_ow_0 _ _
    | ⟨1, _⟩ => exact (lhs_ow_1 _ _).trans hk)
  have er : dot_S1x128_S8192x128_S1x8192_1_1_0_0_n_n.rhsIdx (ix2 a j) ((contrEquiv1 dot_S1x128_S8192x128_S1x8192_1_1_0_0_n_n 128 rfl rfl).symm k) = ix2 j k := funext fun c => Fin.ext (by
    match c with
    | ⟨0, _⟩ => exact rhs_ow_0 _ _
    | ⟨1, _⟩ => exact (rhs_ow_1 _ _).trans hk)
  rw [el, er]

/-! ## Constants and coercions -/

/-- The single-precision pattern `0x40000000` is the real `2`. -/
theorem ofBits_two_f32 : Ideal.ofBits .f32 0x40000000#32 = ((2 : ℝ) : EReal) := by
  simp [Ideal.ofBits, Ideal.ieee, -EReal.coe_mul]; norm_num

/-- The bfloat16 pattern `0x3F80` is the real `1`. -/
theorem ofBits_one_bf16 : Ideal.ofBits .bf16 0x3F80#16 = ((1 : ℝ) : EReal) := by
  simp [Ideal.ofBits, Ideal.ieee, -EReal.coe_mul]; norm_num

/-- The single-precision pattern `0xFF800000` is `−∞`. -/
theorem ofBits_neg_inf_f32 : Ideal.ofBits .f32 0xFF800000#32 = (⊥ : EReal) := by
  simp [Ideal.ofBits, Ideal.ieee]

/-- The coercion of a finite sum of reals is the sum of the coercions. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## The scores of a tile -/

/-- The scores block read at `(b, j)`: twice the inner product of input row `b` with tile row `j`, minus the two
    inner products of the all-ones row with the squares of tile row `j` and with their (vanishing) remainder. -/
theorem pay8_apply (x0 : Vec Ideal S64x128 .f32) (x1 : Vec Ideal S8192x128 .f32) (b : Fin 64) (j : Fin 8192) :
    k0_pay8 (F := Ideal) x0 x1 (ix2 b j)
      = Ideal.ofBits .f32 0x40000000#32 * (∑ k : Fin 128, x0 (ix2 b k) * x1 (ix2 j k))
        - ((∑ k : Fin 128, Ideal.ofBits .bf16 0x3F80#16 * (x1 (ix2 j k) * x1 (ix2 j k)))
          + ∑ k : Fin 128, Ideal.ofBits .bf16 0x3F80#16 * (x1 (ix2 j k) * x1 (ix2 j k) - x1 (ix2 j k) * x1 (ix2 j k))) := by
  unfold k0_pay8
  simp only [subf_apply, mulf_apply, broadcast_apply]
  rw [matmul_xw_apply, broadcastTo_apply _ broadcasts_S1x8192_S64x8192 (ix2 b j) (ix2 (0 : Fin 1) j) (by
    intro a
    match a with
    | ⟨0, _⟩ => rfl
    | ⟨1, _⟩ => rfl)]
  simp only [addf_apply]
  rw [matmul_ow_apply, matmul_ow_apply]
  rfl

theorem pay8_real (xr : S64x128.Idx → ℝ) (wt : S8192x128.Idx → ℝ) (b : Fin 64) (j : Fin 8192) :
    k0_pay8 (F := Ideal) (up xr) (up wt) (ix2 b j)
      = ((2 * (∑ d : Fin 128, xr (ix2 b d) * wt (ix2 j d)) - ∑ d : Fin 128, wt (ix2 j d) * wt (ix2 j d) : ℝ) : EReal) := by
  rw [pay8_apply, ofBits_two_f32, ofBits_one_bf16]
  simp only [up_apply, ← EReal.coe_mul, ← EReal.coe_sub, ← coe_sum, ← EReal.coe_add]
  congr 1
  simp

/-! ## The running maximum and the two exponentials -/

/-- A maximum-fold from `−∞` over a nonempty finite family of reals is a real (one of the family attains it). -/
theorem fold_max_real {ι : Type*} (s : Finset ι) (hs : s.Nonempty) (g : ι → EReal) (hg : ∀ i, ∃ r : ℝ, g i = (r : EReal)) :
    ∃ r : ℝ, s.fold max (⊥ : EReal) g = (r : EReal) := by
  have h : s.fold max (⊥ : EReal) g = s.sup g := rfl
  obtain ⟨i, _, hi⟩ := Finset.exists_mem_eq_sup s hs g
  obtain ⟨r, hr⟩ := hg i
  exact ⟨r, by rw [h, hi, hr]⟩

/-- The row index `b` with the column `k` put back is `(b, k)`. -/
theorem lift_row (h : S64x8192.Reduces [1] S64) (b : Fin 64) (k : Fin (S64x8192.size 1)) :
    h.lift (ix1 b) k = ix2 b (⟨k.val, k.isLt⟩ : Fin 8192) := by
  funext c; apply Fin.ext
  match c with
  | ⟨0, _⟩ => rfl
  | ⟨1, _⟩ => rfl

/-- The row maximum of a tile's scores is a real. -/
theorem rowmax_real (xr : S64x128.Idx → ℝ) (wt : S8192x128.Idx → ℝ) (h : S64x8192.Reduces [1] S64) (hφ : FKind.Formats .f32)
    (hacc : (0xFF800000#32 : BitVec FTy.f32.bits) = FKind.maximumf.neutral .f32 hφ) (b : Fin 64) :
    ∃ r : ℝ, multiReduction (F := Ideal) .maximumf [1] S64 (k0_pay8 (F := Ideal) (up xr) (up wt)) 0xFF800000#32
      h hφ hacc (ix1 b) = (r : EReal) := by
  rw [Ideal.multiReduction_maximumf_single]
  show ∃ r : ℝ, Finset.fold max (Ideal.ofBits .f32 0xFF800000#32) _ _ = _
  rw [ofBits_neg_inf_f32]
  refine fold_max_real _ ⟨⟨0, by decide⟩, Finset.mem_univ _⟩ _ (fun k => ?_)
  show ∃ r : ℝ, k0_pay8 (F := Ideal) (up xr) (up wt) (h.lift (ix1 b) k) = _
  rw [lift_row]
  exact ⟨_, pay8_real xr wt b _⟩

/-- Reading a length-64 vector as a `64 × 1` column: entry `(b, 0)` is entry `b`. -/
theorem rowcast (v : FVec Ideal S64 .f32) (b : Fin 64) : shapeCast S64x1 v shapeCasts_S64_S64x1 (ix2 b 0) = v (ix1 b) :=
  shapeCast_apply _ shapeCasts_S64_S64x1 (ix2 b 0) (ix1 b) (by
    rw [Shape.rowMajor_val_one, Shape.rowMajor_val_two]; simp)

/-- The new running maximum at row `b`: the maximum of the old one with the row maximum of the tile's scores. -/
theorem pay9_apply (x0 : Vec Ideal S64x128 .f32) (x1 : Vec Ideal S8192x128 .f32) (v19 : Vec Ideal S64x1 .f32) (b : Fin 64) :
    k0_pay9 (F := Ideal) x0 x1 v19 (ix2 b 0)
      = max (v19 (ix2 b 0)) (multiReduction (F := Ideal) .maximumf [1] S64 (k0_pay8 (F := Ideal) x0 x1) 0xFF800000#32
          reduces_S64x8192_S64 (.inl rfl) rfl (ix1 b)) :=
  congrArg (max (v19 (ix2 b 0))) (rowcast (multiReduction (F := Ideal) .maximumf [1] S64 (k0_pay8 (F := Ideal) x0 x1) 0xFF800000#32
          reduces_S64x8192_S64 (.inl rfl) rfl) b)

/-- On real inputs that row maximum is a real `tm b`, whatever the old running maximum is. -/
theorem pay9_real (xr : S64x128.Idx → ℝ) (wt : S8192x128.Idx → ℝ) : ∃ tm : Fin 64 → ℝ, ∀ (v19 : Vec Ideal S64x1 .f32) (b : Fin 64),
    k0_pay9 (F := Ideal) (up xr) (up wt) v19 (ix2 b 0) = max (v19 (ix2 b 0)) ((tm b : ℝ) : EReal) := by
  choose tm htm using rowmax_real xr wt reduces_S64x8192_S64 (.inl rfl) rfl
  exact ⟨tm, fun v19 b => by rw [pay9_apply, htm]⟩

/-- The tile's weights: the exponential of the score minus the new running maximum of its row. -/
theorem pay10_apply (x0 : Vec Ideal S64x128 .f32) (x1 : Vec Ideal S8192x128 .f32) (v19 : Vec Ideal S64x1 .f32) (b : Fin 64) (j : Fin 8192) :
    k0_pay10 (F := Ideal) x0 x1 v19 (ix2 b j)
      = Ideal.exp (k0_pay8 (F := Ideal) x0 x1 (ix2 b j) - k0_pay9 (F := Ideal) x0 x1 v19 (ix2 b 0)) := by
  unfold k0_pay10
  show Ideal.exp (k0_pay8 (F := Ideal) x0 x1 (ix2 b j)
    - broadcastTo S64x8192 (k0_pay9 (F := Ideal) x0 x1 v19) broadcasts_S64x1_S64x8192 (ix2 b j)) = _
  rw [broadcastTo_apply _ broadcasts_S64x1_S64x8192 (ix2 b j) (ix2 b (0 : Fin 1)) (by
    intro a
    match a with
    | ⟨0, _⟩ => rfl
    | ⟨1, _⟩ => rfl)]

/-- The correction factor: the exponential of the old running maximum minus the new one. -/
theorem pay11_apply (x0 : Vec Ideal S64x128 .f32) (x1 : Vec Ideal S8192x128 .f32) (v19 : Vec Ideal S64x1 .f32) (b : Fin 64) :
    k0_pay11 (F := Ideal) x0 x1 v19 (ix2 b 0)
      = Ideal.exp (v19 (ix2 b 0) - k0_pay9 (F := Ideal) x0 x1 v19 (ix2 b 0)) := rfl

end Cert.KernelIdeal.PayScore

end
-- ==== Proof.PayAcc.lean ====
/-
  The label side and the accumulator updates of the kernel's body, read at an index over the extended reals.

  Each payload of the body is a composition of elementwise operations, broadcasts, shape casts, a lane sum, a
  maximum over a whole tile and two contractions into a zero accumulator. Read at one index, each is an
  arithmetic expression in the operands' entries: the theorems below say which.
-/
import proofs.«168898_g67370857005486_cont_9to1_m_986_7_alg».proof.Proof.Gen.KernelIdeal.Frame
import proofs.«168898_g67370857005486_cont_9to1_m_986_7_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.PayAcc

open Cert.KernelIdeal Cert.KernelIdeal.Gen Cert.Som Idealize.ShloMosaic Idealize.ShloMosaic.ValueIdx

/-- The pattern `0x3F800000` denotes the real number one. -/
theorem one_val : (Scalar.ofBits .f32 0x3F800000#32 : Ideal .f32) = ((1 : ℝ) : EReal) := by
  show Ideal.ofBits .f32 0x3F800000#32 = _
  rw [Ideal.ofBits_one_f32, EReal.coe_one]

/-- A shape cast to the same shape changes nothing. -/
theorem pay3_eq {F : FTy → Type} [FloatOps F] (v22 : FVec F S64x1 .f32) : k0_pay3 v22 = v22 :=
  shapeCast_self v22 _

/-- The initial running maximum is `-∞` everywhere. -/
theorem pay5_apply (i : S64x1.Idx) : k0_pay5 (F := Ideal) i = ⊥ := by
  unfold k0_pay5
  rw [shapeCast_self]
  show Ideal.ofBits .f32 0xFF800000#32 = ⊥
  simp [Ideal.ofBits, Ideal.ieee]

/-- The initial denominator is zero everywhere. -/
theorem pay6_apply (i : S64x1.Idx) : k0_pay6 (F := Ideal) i = 0 := by
  unfold k0_pay6
  rw [shapeCast_self]
  show Ideal.ofBits .f32 0x00000000#32 = 0
  exact Ideal.ofBits_zero_f32

/-- The initial accumulator is zero everywhere. -/
theorem pay7_apply (i : S64x10.Idx) : k0_pay7 (F := Ideal) i = 0 := by
  unfold k0_pay7
  rw [shapeCast_self]
  show Ideal.ofBits .f32 0x00000000#32 = 0
  exact Ideal.ofBits_zero_f32

/-- A column `[64, 1]` broadcast to `[64, 10]` reads, at `(b, c)`, the column's entry of row `b`. -/
theorem bcast_col10 {α : Type} (v : S64x1.Idx → α) (b : Fin 64) (c : Fin 10) :
    broadcastTo S64x10 v broadcasts_S64x1_S64x10 (ix2 b c) = v (ix2 b 0) := by
  refine broadcastTo_apply v broadcasts_S64x1_S64x10 (ix2 b c) (ix2 b 0) fun ax => ?_
  match ax with
  | ⟨0, _⟩ => rfl
  | ⟨1, _⟩ => rfl

/-- The final quotient: the accumulator's entry over the row's denominator. -/
theorem pay4_apply (v64 : Vec Ideal S64x10 .f32) (v65 : Vec Ideal S64x1 .f32) (b : Fin 64) (c : Fin 10) :
    k0_pay4 (F := Ideal) v64 v65 (ix2 b c) = Ideal.div (v64 (ix2 b c)) (v65 (ix2 b 0)) := by
  unfold k0_pay4
  rw [divf_apply, bcast_col10]

/-- The lane sum's source index over row `b` with lane `k` inserted is `(b, k)`. -/
theorem lift_row (b : Fin 64) (k : Fin 8192) : reduces_S64x8192_S64.lift (ix1 b) k = ix2 b k := by
  funext c
  match c with
  | ⟨0, _⟩ => exact Fin.ext rfl
  | ⟨1, _⟩ => exact Fin.ext rfl

/-- The denominator's update: the old one rescaled, plus the row's sum of the new weights. -/
theorem pay1_apply (v25 : FVec Ideal S64x8192 .f32) (v27 : FVec Ideal S64x1 .f32) (v43 : Vec Ideal S64x1 .f32) (b : Fin 64) :
    k0_pay1 (F := Ideal) v25 v27 v43 (ix2 b 0) = v43 (ix2 b 0) * v27 (ix2 b 0) + ∑ j : Fin 8192, v25 (ix2 b j) := by
  unfold k0_pay1
  rw [shapeCast_self, addf_apply, mulf_apply,
    shapeCast_apply _ shapeCasts_S64_S64x1 (ix2 b 0) (ix1 b) (by
      rw [Shape.rowMajor_val_one, Shape.rowMajor_val_two]
      show b.val = b.val * 1 + 0
      omega)]
  congr 1
  refine (Ideal.multiReduction_add_single v25 0x00000000#32 reduces_S64x8192_S64 (.inl rfl) rfl (ix1 b)).trans ?_
  exact Finset.sum_congr rfl fun k _ => congrArg v25 (lift_row b k)

/-! ## The contraction of the weights with the label distributions, `[64, 8192] · [8192, 10]` -/

theorem lhs_acc_0 (i : S64x10.Idx) (q : dot_S64x8192_S8192x10_S64x10_1_0_0_1_n_n.contr.Idx) :
    (dot_S64x8192_S8192x10_S64x10_1_0_0_1_n_n.lhsIdx i q 0).val = (i 0).val := by
  unfold DotDims.lhsIdx
  rw [dif_neg (show ¬(0 : Fin S64x8192.rank) ∈ dot_S64x8192_S8192x10_S64x10_1_0_0_1_n_n.lhsBatch by decide), dif_pos (show (0 : Fin S64x8192.rank) ∈ dot_S64x8192_S8192x10_S64x10_1_0_0_1_n_n.lhsNonContracting by decide)]
  rfl
theorem lhs_acc_1 (i : S64x10.Idx) (q : dot_S64x8192_S8192x10_S64x10_1_0_0_1_n_n.contr.Idx) :
    (dot_S64x8192_S8192x10_S64x10_1_0_0_1_n_n.lhsIdx i q 1).val = (q ⟨0, by decide⟩).val :=
  dot_S64x8192_S8192x10_S64x10_1_0_0_1_n_n.lhsIdx_val_of_single rfl i q
theorem rhs_acc_0 (i : S64x10.Idx) (q : dot_S64x8192_S8192x10_S64x10_1_0_0_1_n_n.contr.Idx) :
    (dot_S64x8192_S8192x10_S64x10_1_0_0_1_n_n.rhsIdx i q 0).val = (q ⟨0, by decide⟩).val :=
  dot_S64x8192_S8192x10_S64x10_1_0_0_1_n_n.rhsIdx_val_of_single rfl i q
theorem rhs_acc_1 (i : S64x10.Idx) (q : dot_S64x8192_S8192x10_S64x10_1_0_0_1_n_n.contr.Idx) :
    (dot_S64x8192_S8192x10_S64x10_1_0_0_1_n_n.rhsIdx i q 1).val = (i 1).val := by
  unfold DotDims.rhsIdx
  rw [dif_neg (show ¬(1 : Fin S8192x10.rank) ∈ dot_S64x8192_S8192x10_S64x10_1_0_0_1_n_n.rhsBatch by decide), dif_pos (show (1 : Fin S8192x10.rank) ∈ dot_S64x8192_S8192x10_S64x10_1_0_0_1_n_n.rhsNonContracting by decide)]
  rfl

/-- The contraction into a zero accumulator, read at `(b, c)`: the sum over the tile's rows `j` of the left operand at
    `(b, j)` times the right at `(j, c)`. -/
theorem matmul_acc_apply (l : FVec Ideal S64x8192 .f32) (r : FVec Ideal S8192x10 .f32) (b : Fin 64) (c : Fin 10) :
    matmul dot_S64x8192_S8192x10_S64x10_1_0_0_1_n_n none l r (constant (F := Ideal) S64x10 .f32 0x00000000#32) (ix2 b c)
      = ∑ j : Fin 8192, l (ix2 b j) * r (ix2 j c) := by
  unfold matmul
  rw [Ideal.matmul_constant_zero_apply, ← Equiv.sum_comp (contrEquiv1 dot_S64x8192_S8192x10_S64x10_1_0_0_1_n_n 8192 rfl rfl).symm]
  refine Finset.sum_congr rfl fun k _ => ?_
  have hk := contrEquiv1_symm_val dot_S64x8192_S8192x10_S64x10_1_0_0_1_n_n 8192 rfl rfl k
  have el : dot_S64x8192_S8192x10_S64x10_1_0_0_1_n_n.lhsIdx (ix2 b c) ((contrEquiv1 dot_S64x8192_S8192x10_S64x10_1_0_0_1_n_n 8192 rfl rfl).symm k) = ix2 b k := funext fun a => Fin.ext (by
    match a with
    | ⟨0, _⟩ => exact lhs_acc_0 _ _
    | ⟨1, _⟩ => exact (lhs_acc_1 _ _).trans hk)
  have er : dot_S64x8192_S8192x10_S64x10_1_0_0_1_n_n.rhsIdx (ix2 b c) ((contrEquiv1 dot_S64x8192_S8192x10_S64x10_1_0_0_1_n_n 8192 rfl rfl).symm k) = ix2 k c := funext fun a => Fin.ext (by
    match a with
    | ⟨0, _⟩ => exact (rhs_acc_0 _ _).trans hk
    | ⟨1, _⟩ => exact rhs_acc_1 _ _)
  rw [el, er]

/-- The accumulator's update: the old one rescaled, plus the weights, each divided by its neuron's normalizer,
    contracted with the neuron's exponentiated labels. -/
theorem pay2_apply (v25 : FVec Ideal S64x8192 .f32) (v27 : FVec Ideal S64x1 .f32) (v35 : FVec Ideal S8192x10 .f32) (v37 : FVec Ideal S1x8192 .f32) (one : Ideal .f32) (v51 : Vec Ideal S64x10 .f32) (b : Fin 64) (c : Fin 10) :
    k0_pay2 (F := Ideal) v25 v27 v35 v37 one v51 (ix2 b c) = v51 (ix2 b c) * v27 (ix2 b 0) + ∑ j : Fin 8192, (v25 (ix2 b j) * Ideal.div one (v37 (ix2 0 j))) * v35 (ix2 j c) := by
  unfold k0_pay2
  rw [shapeCast_self, addf_apply, mulf_apply, bcast_col10, matmul_acc_apply]
  congr 1
  refine Finset.sum_congr rfl fun j _ => ?_
  rw [mulf_apply, broadcastTo_1b_ab_apply, divf_apply, broadcast_apply]

/-! ## The row sums of the exponentiated labels, `[1, 10] · [8192, 10]ᵀ` -/

theorem lhs_den_0 (i : S1x8192.Idx) (q : dot_S1x10_S8192x10_S1x8192_1_1_0_0_n_n.contr.Idx) :
    (dot_S1x10_S8192x10_S1x8192_1_1_0_0_n_n.lhsIdx i q 0).val = (i 0).val := by
  unfold DotDims.lhsIdx
  rw [dif_neg (show ¬(0 : Fin S1x10.rank) ∈ dot_S1x10_S8192x10_S1x8192_1_1_0_0_n_n.lhsBatch by decide), dif_pos (show (0 : Fin S1x10.rank) ∈ dot_S1x10_S8192x10_S1x8192_1_1_0_0_n_n.lhsNonContracting by decide)]
  rfl
theorem lhs_den_1 (i : S1x8192.Idx) (q : dot_S1x10_S8192x10_S1x8192_1_1_0_0_n_n.contr.Idx) :
    (dot_S1x10_S8192x10_S1x8192_1_1_0_0_n_n.lhsIdx i q 1).val = (q ⟨0, by decide⟩).val :=
  dot_S1x10_S8192x10_S1x8192_1_1_0_0_n_n.lhsIdx_val_of_single rfl i q
theorem rhs_den_0 (i : S1x8192.Idx) (q : dot_S1x10_S8192x10_S1x8192_1_1_0_0_n_n.contr.Idx) :
    (dot_S1x10_S8192x10_S1x8192_1_1_0_0_n_n.rhsIdx i q 0).val = (i 1).val := by
  unfold DotDims.rhsIdx
  rw [dif_neg (show ¬(0 : Fin S8192x10.rank) ∈ dot_S1x10_S8192x10_S1x8192_1_1_0_0_n_n.rhsBatch by decide), dif_pos (show (0 : Fin S8192x10.rank) ∈ dot_S1x10_S8192x10_S1x8192_1_1_0_0_n_n.rhsNonContracting by decide)]
  rfl
theorem rhs_den_1 (i : S1x8192.Idx) (q : dot_S1x10_S8192x10_S1x8192_1_1_0_0_n_n.contr.Idx) :
    (dot_S1x10_S8192x10_S1x8192_1_1_0_0_n_n.rhsIdx i q 1).val = (q ⟨0, by decide⟩).val :=
  dot_S1x10_S8192x10_S1x8192_1_1_0_0_n_n.rhsIdx_val_of_single rfl i q

/-- The contraction into a zero accumulator, read at lane `j`: the sum over the ten classes `c` of the left operand at
    `(0, c)` times the right at `(j, c)`. -/
theorem matmul_den_apply (l : FVec Ideal S1x10 .f32) (r : FVec Ideal S8192x10 .f32) (j : Fin 8192) :
    matmul dot_S1x10_S8192x10_S1x8192_1_1_0_0_n_n none l r (constant (F := Ideal) S1x8192 .f32 0x00000000#32) (ix2 0 j)
      = ∑ c : Fin 10, l (ix2 0 c) * r (ix2 j c) := by
  unfold matmul
  rw [Ideal.matmul_constant_zero_apply, ← Equiv.sum_comp (contrEquiv1 dot_S1x10_S8192x10_S1x8192_1_1_0_0_n_n 10 rfl rfl).symm]
  refine Finset.sum_congr rfl fun k _ => ?_
  have hk := contrEquiv1_symm_val dot_S1x10_S8192x10_S1x8192_1_1_0_0_n_n 10 rfl rfl k
  have el : dot_S1x10_S8192x10_S1x8192_1_1_0_0_n_n.lhsIdx (ix2 0 j) ((contrEquiv1 dot_S1x10_S8192x10_S1x8192_1_1_0_0_n_n 10 rfl rfl).symm k) = ix2 0 k := funext fun a => Fin.ext (by
    match a with
    | ⟨0, _⟩ => exact lhs_den_0 _ _
    | ⟨1, _⟩ => exact (lhs_den_1 _ _).trans hk)
  have er : dot_S1x10_S8192x10_S1x8192_1_1_0_0_n_n.rhsIdx (ix2 0 j) ((contrEquiv1 dot_S1x10_S8192x10_S1x8192_1_1_0_0_n_n 10 rfl rfl).symm k) = ix2 j k := funext fun a => Fin.ext (by
    match a with
    | ⟨0, _⟩ => exact rhs_den_0 _ _
    | ⟨1, _⟩ => exact (rhs_den_1 _ _).trans hk)
  rw [el, er]

/-- Each neuron's normalizer: the sum of its ten exponentiated labels (the row of ones contributes a factor one). -/
theorem pay13_apply (x2 : Vec Ideal S8192x10 .f32) (j : Fin 8192) :
    k0_pay13 (F := Ideal) x2 (ix2 0 j) = ∑ c : Fin 10, k0_pay12 (F := Ideal) x2 (ix2 j c) := by
  unfold k0_pay13
  generalize k0_pay12 (F := Ideal) x2 = y
  rw [matmul_den_apply]
  refine Finset.sum_congr rfl fun c _ => ?_
  rw [broadcast_apply, one_val, EReal.coe_one, one_mul]

/-! ## The exponentiated labels, shifted by the tile's maximum -/

/-- The maximum, from `-∞`, of real entries over a set that is not empty is a real number. -/
theorem fold_max_real {ι : Type} (s : Finset ι) (hs : s.Nonempty) (f : ι → EReal) (hf : ∀ i, ∃ r : ℝ, f i = (r : EReal))
    (b : EReal) (hb : b = ⊥) : ∃ K : ℝ, s.fold max b f = (K : EReal) := by
  subst hb
  obtain ⟨i, -, hi⟩ := Finset.exists_mem_eq_sup s hs f
  obtain ⟨r, hr⟩ := hf i
  exact ⟨r, (show s.fold max ⊥ f = s.sup f from rfl).trans (hi.trans hr)⟩

/-- A one-element shape has one index. -/
theorem idx_S1_eq (j j' : S1.Idx) : j = j' := by
  funext a
  match a with
  | ⟨0, h0⟩ =>
    have h1 : (j ⟨0, h0⟩).val < 1 := (j ⟨0, h0⟩).isLt
    have h2 : (j' ⟨0, h0⟩).val < 1 := (j' ⟨0, h0⟩).isLt
    exact Fin.ext (by omega)

/-- The tile's maximum label is a real number. -/
theorem tile_max_real (lt : S8192x10.Idx → ℝ) : ∃ K : ℝ, ∀ j0 : S1.Idx,
    multiReduction (F := Ideal) .maximumf [1, 2] S1 (shapeCast S1x8192x10 (up lt) shapeCasts_S8192x10_S1x8192x10) 0xFF800000#32 reduces_S1x8192x10_S1 (.inl rfl) rfl j0 = ((K : ℝ) : EReal) := by
  have hbot : (FloatOps.ofBits (F := Ideal) .f32 0xFF800000#32) = (⊥ : EReal) := by
    show Ideal.ofBits .f32 0xFF800000#32 = ⊥
    simp [Ideal.ofBits, Ideal.ieee]
  have key : ∀ j0 : S1.Idx, ∃ K : ℝ,
      multiReduction (F := Ideal) .maximumf [1, 2] S1 (shapeCast S1x8192x10 (up lt) shapeCasts_S8192x10_S1x8192x10) 0xFF800000#32 reduces_S1x8192x10_S1 (.inl rfl) rfl j0 = ((K : ℝ) : EReal) := by
    intro j0
    have e := multiReduction_maximumf_eq_fold (F := Ideal) (shapeCast S1x8192x10 (up lt) shapeCasts_S8192x10_S1x8192x10) 0xFF800000#32 reduces_S1x8192x10_S1 (.inl rfl) rfl j0
    refine Exists.imp (fun K hK => e.trans hK) ?_
    refine fold_max_real _ ?_ _ ?_ _ hbot
    · exact ⟨ix3 0 0 0, Finset.mem_filter.2 ⟨Finset.mem_univ _, idx_S1_eq _ _⟩⟩
    · intro i; exact ⟨lt (Shape.reshapeEquiv _ i), rfl⟩
  obtain ⟨K, hK⟩ := key (ix1 0)
  exact ⟨K, fun j0 => by rw [idx_S1_eq j0 (ix1 0)]; exact hK⟩

/-- Each exponentiated label is the real exponential of the label minus one real number, the same over the tile. -/
theorem pay12_real (lt : S8192x10.Idx → ℝ) : ∃ K : ℝ, ∀ (j : Fin 8192) (c : Fin 10),
    k0_pay12 (F := Ideal) (up lt) (ix2 j c) = ((Real.exp (lt (ix2 j c) - K) : ℝ) : EReal) := by
  obtain ⟨K, hK⟩ := tile_max_real lt
  refine ⟨K, fun j c => ?_⟩
  unfold k0_pay12
  rw [show ∀ v : FVec Ideal S8192x10 .f32, Idealize.ShloMosaic.exp v (ix2 j c) = Ideal.exp (v (ix2 j c)) from fun _ => rfl,
    subf_apply, broadcast_apply]
  unfold extractAt shapeCast
  refine (congrArg (fun m => Ideal.exp (up lt (ix2 j c) - m)) (hK _)).trans ?_
  rw [up_apply, ← EReal.coe_sub, Ideal.exp_coe]

end Cert.KernelIdeal.PayAcc

end
-- ==== Proof.Step.lean ====
/-
  One tile's update of the running values, over real data.

  With the tile's scores `s` (reals), the old running maximum `m`, denominator `d` and accumulator `acc`, the body computes
  the new maximum `m' = max m (max_j s_j)`, the weights `p_j = e^{s_j − m'}`, the correction `e^{m − m'}`, and
  `d' = d·e^{m − m'} + Σ_j p_j`, `acc' = acc·e^{m − m'} + Σ_j (p_j · 1/z_j) · le_j`, where `le_j = e^{l_j − K}` are the label
  exponentials at the tile's shift `K` and `z_j` their row sums: `(1/z_j)·le_j` is the label distribution of row `j`,
  whatever `K` is. All of it is real arithmetic once `m` is a real; at the first tile `m = −∞`, the correction is
  `e^{−∞} = 0` and the old sums are `0`.
-/
import proofs.«168898_g67370857005486_cont_9to1_m_986_7_alg».proof.Proof.Gen.KernelIdeal.Frame
import proofs.«168898_g67370857005486_cont_9to1_m_986_7_alg».proof.Proof.RealAlg
import proofs.«168898_g67370857005486_cont_9to1_m_986_7_alg».proof.Proof.PayScore
import proofs.«168898_g67370857005486_cont_9to1_m_986_7_alg».proof.Proof.PayAcc

noncomputable section

namespace Cert.KernelIdeal.Step

open Cert.KernelIdeal Cert.KernelIdeal.Gen Cert.Som Idealize.ShloMosaic Idealize.ShloMosaic.ValueIdx
open Cert.KernelIdeal.PayScore (pay8_real pay9_real pay10_apply pay11_apply)
open Cert.KernelIdeal.PayAcc (pay12_real pay13_apply pay1_apply pay2_apply pay4_apply pay3_eq pay5_apply pay6_apply pay7_apply one_val)
open Finset

variable (xr : S64x128.Idx → ℝ) (wt : S8192x128.Idx → ℝ) (lt : S8192x10.Idx → ℝ)

/-- The score of the tile's row `j` for input row `b`. -/
def tscore (b : Fin 64) (j : Fin 8192) : ℝ :=
  2 * (∑ d : Fin 128, xr (ix2 b d) * wt (ix2 j d)) - ∑ d : Fin 128, wt (ix2 j d) * wt (ix2 j d)

/-- The label distribution of the tile's row `j`. -/
def tprob (j : Fin 8192) (c : Fin 10) : ℝ :=
  Real.exp (lt (ix2 j c)) / ∑ c' : Fin 10, Real.exp (lt (ix2 j c'))

/-- With the new running maximum a real `M'`, the tile's weights are the reals `e^{s − M'}`. -/
theorem weights_real (v19 : Vec Ideal S64x1 .f32) (M' : Fin 64 → ℝ)
    (h9 : ∀ b, k0_pay9 (F := Ideal) (up xr) (up wt) v19 (ix2 b 0) = ((M' b : ℝ) : EReal)) (b : Fin 64) (j : Fin 8192) :
    k0_pay10 (F := Ideal) (up xr) (up wt) v19 (ix2 b j) = ((Real.exp (tscore xr wt b j - M' b) : ℝ) : EReal) := by
  rw [pay10_apply, pay8_real, h9, ← EReal.coe_sub, Ideal.exp_coe]
  rfl

/-- … and their sum over the tile is the real sum. -/
theorem den_tile (v19 : Vec Ideal S64x1 .f32) (M' : Fin 64 → ℝ)
    (h9 : ∀ b, k0_pay9 (F := Ideal) (up xr) (up wt) v19 (ix2 b 0) = ((M' b : ℝ) : EReal)) (b : Fin 64) :
    ∑ j : Fin 8192, k0_pay10 (F := Ideal) (up xr) (up wt) v19 (ix2 b j) = ((∑ j : Fin 8192, Real.exp (tscore xr wt b j - M' b) : ℝ) : EReal) := by
  rw [coe_sum]
  exact Finset.sum_congr rfl fun j _ => weights_real xr wt v19 M' h9 b j

/-- The label side: the tile's label exponentials against their row sums are the label distribution, whatever real shift the tile used. -/
theorem label_term (j : Fin 8192) (c : Fin 10) :
    Ideal.div (Scalar.ofBits .f32 0x3F800000#32 : Ideal .f32) (k0_pay13 (F := Ideal) (up lt) (ix2 0 j)) * k0_pay12 (F := Ideal) (up lt) (ix2 j c)
      = ((tprob lt j c : ℝ) : EReal) := by
  obtain ⟨K, hK⟩ := pay12_real lt
  have hZ : k0_pay13 (F := Ideal) (up lt) (ix2 0 j) = ((∑ c' : Fin 10, Real.exp (lt (ix2 j c') - K) : ℝ) : EReal) := by
    rw [pay13_apply, coe_sum]
    exact Finset.sum_congr rfl fun c' _ => hK j c'
  have hpos : 0 < ∑ c' : Fin 10, Real.exp (lt (ix2 j c') - K) := Finset.sum_pos (fun _ _ => Real.exp_pos _) Finset.univ_nonempty
  rw [hZ, hK, one_val, Ideal.div_coe hpos.ne', ← EReal.coe_mul, ← EReal.coe_mul]
  refine congrArg Real.toEReal ?_
  unfold tprob
  have h := rescale (Finset.univ : Finset (Fin 10)) (fun c' => lt (ix2 j c')) (fun _ => 1) 0 K
  simp only [sub_zero, mul_one, zero_sub] at h
  have e : Real.exp (lt (ix2 j c) - K) = Real.exp (lt (ix2 j c)) * Real.exp (-K) := by rw [← Real.exp_add]; ring_nf
  rw [← h, e]
  field_simp

/-- The accumulator's new term: the tile's weights against the label distributions. -/
theorem acc_tile (v19 : Vec Ideal S64x1 .f32) (M' : Fin 64 → ℝ)
    (h9 : ∀ b, k0_pay9 (F := Ideal) (up xr) (up wt) v19 (ix2 b 0) = ((M' b : ℝ) : EReal)) (b : Fin 64) (c : Fin 10) :
    ∑ j : Fin 8192, (k0_pay10 (F := Ideal) (up xr) (up wt) v19 (ix2 b j) * Ideal.div (Scalar.ofBits .f32 0x3F800000#32 : Ideal .f32) (k0_pay13 (F := Ideal) (up lt) (ix2 0 j))) * k0_pay12 (F := Ideal) (up lt) (ix2 j c)
      = ((∑ j : Fin 8192, Real.exp (tscore xr wt b j - M' b) * tprob lt j c : ℝ) : EReal) := by
  rw [coe_sum]
  refine Finset.sum_congr rfl fun j _ => ?_
  rw [mul_assoc, label_term, weights_real xr wt v19 M' h9, ← EReal.coe_mul]

/-- THE UPDATE from real running values `M`, `D`, `A`: the new maximum is a real `M'`, and the new denominator and
    accumulator are the old ones times `e^{M − M'}` plus the tile's terms at `M'`. -/
theorem step_real (xs0 xs1 : Vec Ideal S64x1 .f32) (xs2 : Vec Ideal S64x10 .f32) (M D : Fin 64 → ℝ) (A : Fin 64 → Fin 10 → ℝ)
    (h0 : ∀ b, xs0 (ix2 b 0) = ((M b : ℝ) : EReal)) (h1 : ∀ b, xs1 (ix2 b 0) = ((D b : ℝ) : EReal)) (h2 : ∀ b c, xs2 (ix2 b c) = ((A b c : ℝ) : EReal)) :
    ∃ M' : Fin 64 → ℝ,
      (∀ b, k0_pay9 (F := Ideal) (up xr) (up wt) xs0 (ix2 b 0) = ((M' b : ℝ) : EReal)) ∧
      (∀ b, k0_pay1 (F := Ideal) (k0_pay10 (up xr) (up wt) xs0) (k0_pay11 (up xr) (up wt) xs0) xs1 (ix2 b 0)
          = ((D b * Real.exp (M b - M' b) + ∑ j : Fin 8192, Real.exp (tscore xr wt b j - M' b) : ℝ) : EReal)) ∧
      (∀ b c, k0_pay2 (F := Ideal) (k0_pay10 (up xr) (up wt) xs0) (k0_pay11 (up xr) (up wt) xs0) (k0_pay12 (up lt)) (k0_pay13 (up lt)) (Scalar.ofBits .f32 0x3F800000#32) xs2 (ix2 b c)
          = ((A b c * Real.exp (M b - M' b) + ∑ j : Fin 8192, Real.exp (tscore xr wt b j - M' b) * tprob lt j c : ℝ) : EReal)) := by
  obtain ⟨tm, htm⟩ := pay9_real xr wt
  have h9 : ∀ b, k0_pay9 (F := Ideal) (up xr) (up wt) xs0 (ix2 b 0) = ((max (M b) (tm b) : ℝ) : EReal) := fun b => by
    rw [htm, h0, EReal.coe_strictMono.monotone.map_max]
  have h11 : ∀ b, k0_pay11 (F := Ideal) (up xr) (up wt) xs0 (ix2 b 0) = ((Real.exp (M b - max (M b) (tm b)) : ℝ) : EReal) := fun b => by
    rw [pay11_apply, h9, h0, ← EReal.coe_sub, Ideal.exp_coe]
  refine ⟨fun b => max (M b) (tm b), h9, fun b => ?_, fun b c => ?_⟩
  · rw [pay1_apply, h1, h11, den_tile xr wt xs0 _ h9, ← EReal.coe_mul, ← EReal.coe_add]
  · rw [pay2_apply, h2, h11, acc_tile xr wt lt xs0 _ h9, ← EReal.coe_mul, ← EReal.coe_add]

/-- THE FIRST UPDATE, from the reset values (maximum `−∞`, denominator and accumulator `0`): the correction factor is
    `e^{−∞} = 0`, and what is left is the tile's terms at the tile's own maximum. -/
theorem step_fresh (xs0 xs1 : Vec Ideal S64x1 .f32) (xs2 : Vec Ideal S64x10 .f32)
    (h0 : ∀ b, xs0 (ix2 b 0) = ⊥) (h1 : ∀ b, xs1 (ix2 b 0) = 0) (h2 : ∀ b c, xs2 (ix2 b c) = 0) :
    ∃ M' : Fin 64 → ℝ,
      (∀ b, k0_pay9 (F := Ideal) (up xr) (up wt) xs0 (ix2 b 0) = ((M' b : ℝ) : EReal)) ∧
      (∀ b, k0_pay1 (F := Ideal) (k0_pay10 (up xr) (up wt) xs0) (k0_pay11 (up xr) (up wt) xs0) xs1 (ix2 b 0)
          = ((∑ j : Fin 8192, Real.exp (tscore xr wt b j - M' b) : ℝ) : EReal)) ∧
      (∀ b c, k0_pay2 (F := Ideal) (k0_pay10 (up xr) (up wt) xs0) (k0_pay11 (up xr) (up wt) xs0) (k0_pay12 (up lt)) (k0_pay13 (up lt)) (Scalar.ofBits .f32 0x3F800000#32) xs2 (ix2 b c)
          = ((∑ j : Fin 8192, Real.exp (tscore xr wt b j - M' b) * tprob lt j c : ℝ) : EReal)) := by
  obtain ⟨tm, htm⟩ := pay9_real xr wt
  have h9 : ∀ b, k0_pay9 (F := Ideal) (up xr) (up wt) xs0 (ix2 b 0) = ((tm b : ℝ) : EReal) := fun b => by
    rw [htm, h0, max_eq_right bot_le]
  have h11 : ∀ b, k0_pay11 (F := Ideal) (up xr) (up wt) xs0 (ix2 b 0) = 0 := fun b => by
    rw [pay11_apply, h0, EReal.bot_sub, Ideal.exp_bot]
  refine ⟨tm, h9, fun b => ?_, fun b c => ?_⟩
  · rw [pay1_apply, h1, h11, den_tile xr wt xs0 _ h9, mul_zero, zero_add]
  · rw [pay2_apply, h2, h11, acc_tile xr wt lt xs0 _ h9, mul_zero, zero_add]

end Cert.KernelIdeal.Step

end
-- ==== Proof.Blocks.lean ====
/-
  What the windows read and what the one write-back writes.

  The grid has 32 points. The input window always reads the whole [64, 128] input; the weight and label windows read,
  at point t, rows 8192·t … 8192·t + 8191 of their arrays; the result window's block is the whole [64, 10] result,
  written back after the last point only. So an input block of a real array is a real array (its rows re-indexed), and
  the result array after the run is what the last point leaves in the output block.
-/
import proofs.«168898_g67370857005486_cont_9to1_m_986_7_alg».proof.Proof.Gen.KernelIdeal.Value
import proofs.«168898_g67370857005486_cont_9to1_m_986_7_alg».proof.Proof.Spec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Blocks
open Cert.KernelIdeal Cert.KernelIdeal.Gen Cert.Som

variable (m : (ℓ : Loc nD τ sig) → Buf (Elt Ideal) ℓ)

/-- Window 0 always reads block (0, 0); windows 1 and 2 read block (t, 0) at point t. -/
theorem idx0 : ∀ t : Fin grid0.N, win0_0.index t 0 = 0 ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel

/-- Row r of tile t is row 8192·t + r, as natural numbers. -/
theorem tile_row (t : ℕ) (ht : t < 32) (k : ℕ) (hk : k = t) (j : Fin 8192) : k * 8192 + 1 * j.val = (tileIdx t j).val := by
  rw [tileIdx_val _ ht, hk]; omega

/-- The input block read at every point is the whole input array. -/
theorem xblk_eq (c : Dev nD) (t : Fin cfg0.N) (xr : S64x128.Idx → ℝ) (hx : m ((c : Thread nD τ).loc main_arg0) = up xr) :
    (iblk m c 0 t : Vec Ideal S64x128 .f32) = up xr := by
  funext y
  unfold iblk
  rw [View.read_apply]
  show V m c main_arg0 _ = _
  rw [V_main_arg0 m c, hx]
  unfold up
  refine congrArg (fun i => ((xr i : ℝ) : EReal)) ?_
  funext a
  apply Fin.ext
  match a with
  | ⟨0, _⟩ => show win0_0.index t 0 * 64 + 1 * (y 0).val = (y 0).val; rw [(idx0 t).1]; omega
  | ⟨1, _⟩ => show win0_0.index t 1 * 128 + 1 * (y 1).val = (y 1).val; rw [(idx0 t).2]; omega

/-- The weight block read at point t is rows 8192·t + r of the weight array. -/
theorem wblk_eq (c : Dev nD) (t : Fin cfg0.N) (wr : S262144x128.Idx → ℝ) (hw : m ((c : Thread nD τ).loc main_arg1) = up wr) :
    (iblk m c 1 t : Vec Ideal S8192x128 .f32) = up (fun y : S8192x128.Idx => wr (ix2 (tileIdx t.val (y 0)) (y 1))) := by
  have ht : t.val < 32 := lt_of_lt_of_eq t.isLt (show cfg0.N = 32 from N_0)
  funext y
  unfold iblk
  rw [View.read_apply]
  show V m c main_arg1 _ = _
  rw [V_main_arg1 m c, hw]
  unfold up
  refine congrArg (fun i => ((wr i : ℝ) : EReal)) ?_
  funext a
  apply Fin.ext
  match a with
  | ⟨0, _⟩ => show win0_1.index t 0 * 8192 + 1 * (y 0).val = (tileIdx t.val (y 0)).val; exact tile_row t.val ht _ (idx1 t).1 (y 0)
  | ⟨1, _⟩ => show win0_1.index t 1 * 128 + 1 * (y 1).val = (y 1).val; rw [(idx1 t).2]; omega

/-- The label block read at point t is rows 8192·t + r of the label array. -/
theorem lblk_eq (c : Dev nD) (t : Fin cfg0.N) (lr : S262144x10.Idx → ℝ) (hl : m ((c : Thread nD τ).loc main_arg2) = up lr) :
    (iblk m c 2 t : Vec Ideal S8192x10 .f32) = up (fun y : S8192x10.Idx => lr (ix2 (tileIdx t.val (y 0)) (y 1))) := by
  have ht : t.val < 32 := lt_of_lt_of_eq t.isLt (show cfg0.N = 32 from N_0)
  funext y
  unfold iblk
  rw [View.read_apply]
  show V m c main_arg2 _ = _
  rw [V_main_arg2 m c, hl]
  unfold up
  refine congrArg (fun i => ((lr i : ℝ) : EReal)) ?_
  funext a
  apply Fin.ext
  match a with
  | ⟨0, _⟩ => show win0_2.index t 0 * 8192 + 1 * (y 0).val = (tileIdx t.val (y 0)).val; exact tile_row t.val ht _ (idx2 t).1 (y 0)
  | ⟨1, _⟩ => show win0_2.index t 1 * 10 + 1 * (y 1).val = (y 1).val; rw [(idx2 t).2]; omega

/-- The result window always sits at block (0, 0), and its block is the whole [64, 10] array. -/
theorem idx3 : ∀ t : Fin grid0.N, win0_3.index t 0 = 0 ∧ win0_3.index t 1 = 0 := by decide +kernel
theorem xsz3 : ∀ t : Fin grid0.N, win0_3.xsize (grid0.coords t) 0 = 64 ∧ win0_3.xsize (grid0.coords t) 1 = 10 := by decide +kernel

/-- The result array after the run is what the last grid point leaves in the output block: the one write-back,
    at point 31, writes the whole array. -/
theorem final_of_last (c : Dev nD) (G : S64x10.Idx → EReal) (h31 : (31 : ℕ) < cfg0.N) (hG : (outsAt0 m c 31 h31).1 = G) :
    (dats m 0 c).arrAt 3 cfg0.N = G := by
  have hN : cfg0.N = 32 := N_0
  have key : ∀ (n : ℕ) (hn : n < cfg0.N), n = 31 → (outsAt0 m c n hn).1 = G := by
    intro n hn e; subst e; exact hG
  refine (dats m 0 c).arrAt_eq_of_cover 3 G (fun t hf => ?_) (fun i => ?_)
  · have h3 : t.val = 31 := by have := (flush0_3 t).mp hf; have := t.isLt; omega
    rw [Value.flushed3, key t.val t.isLt h3]
    have hz' : (fun a => win0_3.index t a * main_v0.ty.shape.size a) = fun _ => 0 := funext fun a => by
      fin_cases a
      · show win0_3.index t 0 * _ = 0
        rw [(idx3 t).1, Nat.zero_mul]
      · show win0_3.index t 1 * _ = 0
        rw [(idx3 t).2, Nat.zero_mul]
    exact (Memref.read_access_unit_zero (Elt Ideal) main_v0 hz' (fun a => by rw [congrFun hz' a]; simp) G).symm
  · refine ⟨⟨31, h31⟩, (flush0_3 _).mpr rfl, ?_⟩
    show i ∈ ((View.whole main_v0).slice (win0_3.rect ⟨31, h31⟩)).set
    rw [View.set_slice_whole, Rect.mem_set_unit]
    intro a
    have h0 : (i 0 : Nat) < 64 := (i 0).isLt
    have h1 : (i 1 : Nat) < 10 := (i 1).isLt
    match a with
    | ⟨0, _⟩ =>
      show win0_3.index ⟨31, h31⟩ 0 * win0_3.size 0 ≤ (i 0 : Nat) ∧ (i 0 : Nat) < win0_3.index ⟨31, h31⟩ 0 * win0_3.size 0 + win0_3.xsize (grid0.coords ⟨31, h31⟩) 0
      rw [(idx3 _).1, (xsz3 _).1]; omega
    | ⟨1, _⟩ =>
      show win0_3.index ⟨31, h31⟩ 1 * win0_3.size 1 ≤ (i 1 : Nat) ∧ (i 1 : Nat) < win0_3.index ⟨31, h31⟩ 1 * win0_3.size 1 + win0_3.xsize (grid0.coords ⟨31, h31⟩) 1
      rw [(idx3 _).2, (xsz3 _).2]; omega

end Cert.KernelIdeal.Blocks
end
-- ==== Proof.KernelValue.lean ====
/-
  What the kernel's result array holds after the run, from real inputs: the mixture `out`.

  After grid point `n` the three carried buffers hold, for some real shift `M b` per input row (the running maximum,
  whose value is never needed), `M`, `Σ e^{s − M}` and `Σ e^{s − M}·prob` over the neurons of tiles `0 … n` — by
  induction on the point: the first point starts from the reset values, every later point rescales the old sums to
  its new shift and adds its tile. After the last point the output block is the quotient of the two sums over all
  262144 neurons, which does not depend on the shift; that block is the whole result array, written back once.
-/
import proofs.«168898_g67370857005486_cont_9to1_m_986_7_alg».proof.Proof.Gen.KernelIdeal.Value
import proofs.«168898_g67370857005486_cont_9to1_m_986_7_alg».proof.Proof.RealAlg
import proofs.«168898_g67370857005486_cont_9to1_m_986_7_alg».proof.Proof.Pieces
import proofs.«168898_g67370857005486_cont_9to1_m_986_7_alg».proof.Proof.Step
import proofs.«168898_g67370857005486_cont_9to1_m_986_7_alg».proof.Proof.Blocks

set_option maxRecDepth 16384

noncomputable section

namespace Cert.KernelIdeal.SomValue

open Cert.KernelIdeal Cert.KernelIdeal.Gen Cert.Som Idealize.ShloMosaic Idealize.ShloMosaic.TcCoe Idealize.ShloMosaic.ValueIdx Idealize.SL.Sem
open Cert.KernelIdeal.Pieces Cert.KernelIdeal.Step Cert.KernelIdeal.Blocks
open Cert.KernelIdeal.PayAcc (pay4_apply pay3_eq pay5_apply pay6_apply pay7_apply)
open Finset
open Idealize.ShloMosaic.Pipeline (Dat)

variable (m : (ℓ : Loc nD τ sig) → Buf (Elt Ideal) ℓ) (ρ : Dev nD → PrngReg)
variable (xr : S64x128.Idx → ℝ) (wr : S262144x128.Idx → ℝ) (lr : S262144x10.Idx → ℝ)

/-- Tile `t` of the weights: rows `8192·t + r`. -/
def wtile (t : ℕ) : S8192x128.Idx → ℝ := fun y => wr (ix2 (tileIdx t (y 0)) (y 1))
/-- Tile `t` of the labels. -/
def ltile (t : ℕ) : S8192x10.Idx → ℝ := fun y => lr (ix2 (tileIdx t (y 0)) (y 1))

theorem tscore_tile (t : ℕ) (b : Fin 64) (j : Fin 8192) : tscore xr (wtile wr t) b j = score xr wr b (tileIdx t j) := rfl
theorem tprob_tile (t : ℕ) (j : Fin 8192) (cc : Fin 10) : tprob (ltile lr t) j cc = prob lr (tileIdx t j) cc := rfl

/-- The running values after point `n`, as payloads of the point's real tiles over what the point before left (`p`). -/
abbrev upd (t : ℕ) (p0 p1 : Vec Ideal S64x1 .f32) (p2 : Vec Ideal S64x10 .f32) :
    Vec Ideal S64x1 .f32 × Vec Ideal S64x1 .f32 × Vec Ideal S64x10 .f32 :=
  (k0_pay9 (F := Ideal) (up xr) (up (wtile wr t)) p0,
   k0_pay1 (F := Ideal) (k0_pay10 (up xr) (up (wtile wr t)) p0) (k0_pay11 (up xr) (up (wtile wr t)) p0) p1,
   k0_pay2 (F := Ideal) (k0_pay10 (up xr) (up (wtile wr t)) p0) (k0_pay11 (up xr) (up (wtile wr t)) p0) (k0_pay12 (up (ltile lr t))) (k0_pay13 (up (ltile lr t))) (Scalar.ofBits .f32 0x3F800000#32) p2)

variable (c : Dev nD) (hx : m ((c : Thread nD τ).loc main_arg0) = up xr) (hw : m ((c : Thread nD τ).loc main_arg1) = up wr) (hl : m ((c : Thread nD τ).loc main_arg2) = up lr)

include hx hw hl in
/-- The first point: the update from the reset values. -/
theorem vals_A (t : Fin cfg0.N) (h0 : t.val % 32 = 0) (h1 : ¬t.val % 32 = 31) :
    (outsAt0 m c t.val t.isLt).2 = upd xr wr lr t.val (k0_pay5 (F := Ideal)) (k0_pay6 (F := Ideal)) (k0_pay7 (F := Ideal)) := by
  rw [outsAt0_A m c t h0 h1]
  dsimp only
  rw [sA0, sA1, sA2, pay3_eq, xblk_eq m c t xr hx, wblk_eq m c t wr hw, lblk_eq m c t lr hl]
  rfl

include hx hw hl in
/-- A middle point: the update from what the point before left. -/
theorem vals_B (t : Fin cfg0.N) (h0 : ¬t.val % 32 = 0) (h1 : ¬t.val % 32 = 31) :
    (outsAt0 m c t.val t.isLt).2 = upd xr wr lr t.val (outsAt0 m c (t.val - 1) (Nat.lt_of_le_of_lt (Nat.sub_le _ _) t.isLt)).2.1
      (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0 h1]
  dsimp only
  rw [sB0, sB1, sB2, pay3_eq, xblk_eq m c t xr hx, wblk_eq m c t wr hw, lblk_eq m c t lr hl]
  rfl

include hx hw hl in
/-- The last point: the same update, and the output block is the new accumulator over the new denominator. -/
theorem vals_C (t : Fin cfg0.N) (h0 : ¬t.val % 32 = 0) (h1 : t.val % 32 = 31) :
    outsAt0 m c t.val t.isLt =
      (k0_pay4 (F := Ideal) (upd xr wr lr t.val (outsAt0 m c (t.val - 1) (Nat.lt_of_le_of_lt (Nat.sub_le _ _) t.isLt)).2.1
          (outsAt0 m c (t.val - 1) (Nat.lt_of_le_of_lt (Nat.sub_le _ _) t.isLt)).2.2.1 (outsAt0 m c (t.val - 1) (Nat.lt_of_le_of_lt (Nat.sub_le _ _) t.isLt)).2.2.2).2.2
        (upd xr wr lr t.val (outsAt0 m c (t.val - 1) (Nat.lt_of_le_of_lt (Nat.sub_le _ _) t.isLt)).2.1
          (outsAt0 m c (t.val - 1) (Nat.lt_of_le_of_lt (Nat.sub_le _ _) t.isLt)).2.2.1 (outsAt0 m c (t.val - 1) (Nat.lt_of_le_of_lt (Nat.sub_le _ _) t.isLt)).2.2.2).2.1,
       upd xr wr lr t.val (outsAt0 m c (t.val - 1) (Nat.lt_of_le_of_lt (Nat.sub_le _ _) t.isLt)).2.1
      (outsAt0 m c (t.val - 1) (Nat.lt_of_le_of_lt (Nat.sub_le _ _) t.isLt)).2.2.1 (outsAt0 m c (t.val - 1) (Nat.lt_of_le_of_lt (Nat.sub_le _ _) t.isLt)).2.2.2) := by
  rw [outsAt0_C m c t h0 h1]
  dsimp only
  rw [sC0, sC1, sC2, oC3, pay3_eq, xblk_eq m c t xr hx, wblk_eq m c t wr hw, lblk_eq m c t lr hl]
  rfl

/-- THE INVARIANT after point `n`: for some real shift `M b` per input row, the three carried buffers hold `M`, the
    partial denominator `Σ e^{s − M}` and the partial accumulator `Σ e^{s − M}·prob` over the neurons of tiles `0 … n`. -/
def Inv (n : ℕ) (hn : n < cfg0.N) : Prop :=
  ∃ M : Fin 64 → ℝ,
    (∀ b : Fin 64, ((outsAt0 m c n hn).2.1 : Vec Ideal S64x1 .f32) (ix2 b 0) = ((M b : ℝ) : EReal)) ∧
    (∀ b : Fin 64, ((outsAt0 m c n hn).2.2.1 : Vec Ideal S64x1 .f32) (ix2 b 0)
        = ((∑ u ∈ range (n + 1), ∑ j : Fin 8192, Real.exp (score xr wr b (tileIdx u j) - M b) : ℝ) : EReal)) ∧
    (∀ (b : Fin 64) (cc : Fin 10), ((outsAt0 m c n hn).2.2.2 : Vec Ideal S64x10 .f32) (ix2 b cc)
        = ((∑ u ∈ range (n + 1), ∑ j : Fin 8192, Real.exp (score xr wr b (tileIdx u j) - M b) * prob lr (tileIdx u j) cc : ℝ) : EReal))

/-- One update carries the invariant from tiles `0 … n` to tiles `0 … n + 1`: the old sums are rescaled to the new shift. -/
theorem inv_upd (n : ℕ) (p0 p1 : Vec Ideal S64x1 .f32) (p2 : Vec Ideal S64x10 .f32) (M : Fin 64 → ℝ)
    (h0 : ∀ b : Fin 64, p0 (ix2 b 0) = ((M b : ℝ) : EReal))
    (h1 : ∀ b : Fin 64, p1 (ix2 b 0) = ((∑ u ∈ range (n + 1), ∑ j : Fin 8192, Real.exp (score xr wr b (tileIdx u j) - M b) : ℝ) : EReal))
    (h2 : ∀ (b : Fin 64) (cc : Fin 10), p2 (ix2 b cc) = ((∑ u ∈ range (n + 1), ∑ j : Fin 8192, Real.exp (score xr wr b (tileIdx u j) - M b) * prob lr (tileIdx u j) cc : ℝ) : EReal)) :
    ∃ M' : Fin 64 → ℝ,
      (∀ b : Fin 64, (upd xr wr lr (n + 1) p0 p1 p2).1 (ix2 b 0) = ((M' b : ℝ) : EReal)) ∧
      (∀ b : Fin 64, (upd xr wr lr (n + 1) p0 p1 p2).2.1 (ix2 b 0)
          = ((∑ u ∈ range (n + 1 + 1), ∑ j : Fin 8192, Real.exp (score xr wr b (tileIdx u j) - M' b) : ℝ) : EReal)) ∧
      (∀ (b : Fin 64) (cc : Fin 10), (upd xr wr lr (n + 1) p0 p1 p2).2.2 (ix2 b cc)
          = ((∑ u ∈ range (n + 1 + 1), ∑ j : Fin 8192, Real.exp (score xr wr b (tileIdx u j) - M' b) * prob lr (tileIdx u j) cc : ℝ) : EReal)) := by
  obtain ⟨M', h9, hd, ha⟩ := step_real xr (wtile wr (n + 1)) (ltile lr (n + 1)) p0 p1 p2 M _ _ h0 h1 h2
  refine ⟨M', h9, fun b => ?_, fun b cc => ?_⟩
  · refine (hd b).trans (congrArg Real.toEReal ?_)
    rw [Finset.sum_range_succ _ (n + 1)]
    congr 1
    have h := rescale (range (n + 1) ×ˢ (univ : Finset (Fin 8192))) (fun q => score xr wr b (tileIdx q.1 q.2)) (fun _ => 1) (M b) (M' b)
    simp only [mul_one, Finset.sum_product] at h
    exact h
  · refine (ha b cc).trans (congrArg Real.toEReal ?_)
    rw [Finset.sum_range_succ _ (n + 1)]
    congr 1
    have h := rescale (range (n + 1) ×ˢ (univ : Finset (Fin 8192))) (fun q => score xr wr b (tileIdx q.1 q.2)) (fun q => prob lr (tileIdx q.1 q.2) cc) (M b) (M' b)
    simp only [Finset.sum_product] at h
    exact h

include hx hw hl in
/-- The invariant holds after every point. -/
theorem inv_all : ∀ (n : ℕ) (hn : n < cfg0.N), Inv m xr wr lr c n hn
  | 0, hn => by
    have e := vals_A m xr wr lr c hx hw hl ⟨0, hn⟩ rfl (by dsimp only; omega)
    obtain ⟨M', h9, hd, ha⟩ := step_fresh xr (wtile wr 0) (ltile lr 0) (k0_pay5 (F := Ideal)) (k0_pay6 (F := Ideal)) (k0_pay7 (F := Ideal)) (fun b => pay5_apply _) (fun b => pay6_apply _) (fun b cc => pay7_apply _)
    refine ⟨M', fun b => ?_, fun b => ?_, fun b cc => ?_⟩
    · show (outsAt0 m c 0 hn).2.1 (ix2 b 0) = _
      rw [e]; exact h9 b
    · show (outsAt0 m c 0 hn).2.2.1 (ix2 b 0) = _
      rw [e, Finset.sum_range_one]; exact hd b
    · show (outsAt0 m c 0 hn).2.2.2 (ix2 b cc) = _
      rw [e, Finset.sum_range_one]; exact ha b cc
  | n + 1, hn => by
    have hN : n + 1 < 32 := lt_of_lt_of_eq hn (show cfg0.N = 32 from N_0)
    obtain ⟨M, h0, h1, h2⟩ := inv_all n (Nat.lt_of_succ_lt hn)
    obtain ⟨M', g0, g1, g2⟩ := inv_upd xr wr lr n _ _ _ M h0 h1 h2
    have hne : ¬(⟨n + 1, hn⟩ : Fin cfg0.N).val % 32 = 0 := by dsimp only; omega
    by_cases hl31 : (⟨n + 1, hn⟩ : Fin cfg0.N).val % 32 = 31
    · have e := vals_C m xr wr lr c hx hw hl ⟨n + 1, hn⟩ hne hl31
      refine ⟨M', fun b => ?_, fun b => ?_, fun b cc => ?_⟩
      · show (outsAt0 m c (n + 1) hn).2.1 (ix2 b 0) = _
        rw [e]; exact g0 b
      · show (outsAt0 m c (n + 1) hn).2.2.1 (ix2 b 0) = _
        rw [e]; exact g1 b
      · show (outsAt0 m c (n + 1) hn).2.2.2 (ix2 b cc) = _
        rw [e]; exact g2 b cc
    · have e := vals_B m xr wr lr c hx hw hl ⟨n + 1, hn⟩ hne hl31
      refine ⟨M', fun b => ?_, fun b => ?_, fun b cc => ?_⟩
      · show (outsAt0 m c (n + 1) hn).2.1 (ix2 b 0) = _
        rw [e]; exact g0 b
      · show (outsAt0 m c (n + 1) hn).2.2.1 (ix2 b 0) = _
        rw [e]; exact g1 b
      · show (outsAt0 m c (n + 1) hn).2.2.2 (ix2 b cc) = _
        rw [e]; exact g2 b cc

include hx hw hl in
/-- After the last point the output block is the result: the accumulator over the denominator, which no longer sees the shift. -/
theorem last_out (h31 : (31 : ℕ) < cfg0.N) :
    (outsAt0 m c 31 h31).1 = fun i : S64x10.Idx => ((out xr wr lr (i 0) (i 1) : ℝ) : EReal) := by
  obtain ⟨M, h0, h1, h2⟩ := inv_all m xr wr lr c hx hw hl 30 (Nat.lt_of_succ_lt h31)
  obtain ⟨M', g0, g1, g2⟩ := inv_upd xr wr lr 30 _ _ _ M h0 h1 h2
  have e := vals_C m xr wr lr c hx hw hl ⟨31, h31⟩ (by dsimp only; omega) rfl
  funext i
  obtain ⟨b, cc, rfl⟩ : ∃ (b : Fin 64) (cc : Fin 10), i = ix2 b cc := ⟨i 0, i 1, eq_ix2 i⟩
  show (outsAt0 m c 31 h31).1 (ix2 b cc) = _
  rw [e]
  dsimp only
  rw [pay4_apply]
  have hD := g1 b
  have hA := g2 b cc
  dsimp only at hD hA
  rw [hA, hD]
  have hpos : 0 < ∑ u ∈ range (30 + 1 + 1), ∑ j : Fin 8192, Real.exp (score xr wr b (tileIdx u j) - M' b) :=
    Finset.sum_pos (fun _ _ => Finset.sum_pos (fun _ _ => Real.exp_pos _) Finset.univ_nonempty) (by simp)
  rw [Ideal.div_coe hpos.ne', ← EReal.coe_mul]
  refine congrArg Real.toEReal ?_
  show _ = out xr wr lr b cc
  unfold out
  rw [← sum_tiles (fun n => Real.exp (score xr wr b n) * prob lr n cc), ← sum_tiles (fun n => Real.exp (score xr wr b n))]
  have hr := ratio_shift (range 32 ×ˢ (univ : Finset (Fin 8192))) (by simp) (fun q => score xr wr b (tileIdx q.1 q.2)) (fun q => prob lr (tileIdx q.1 q.2) cc) (M' b)
  simp only [Finset.sum_product] at hr
  rw [← hr]
  ring

include hx hw hl in
/-- So the result array ends at the result. -/
theorem final (h31 : (31 : ℕ) < cfg0.N) :
    (dats m 0 c).arrAt 3 cfg0.N = fun i : S64x10.Idx => ((out xr wr lr (i 0) (i 1) : ℝ) : EReal) :=
  final_of_last m c _ h31 (last_out m xr wr lr c hx hw hl h31)

end Cert.KernelIdeal.SomValue

end
-- ==== Proof.RefProb.lean ====
/-
  The reference's label softmax, read index by index, is the real label distribution.

  For each neuron the reference subtracts the maximum of its ten label logits (a maximum of finitely many reals, so a
  real), exponentiates, and divides by the row sum of the exponentials. A softmax does not see a common real shift of
  its exponents, so the quotient is e^{l n c} / Σ_c' e^{l n c'}.
-/
import proofs.«168898_g67370857005486_cont_9to1_m_986_7_alg».proof.Proof.Gen.ReferenceIdeal.Read
import proofs.«168898_g67370857005486_cont_9to1_m_986_7_alg».proof.Proof.Spec
import Idealize.ShloMosaic.PureOps.Ideal.Laws
import Idealize.ShloMosaic.PureOps.Reduce
import Idealize.ShloMosaic.Lib.ValueIdx

noncomputable section

namespace Cert.ReferenceIdeal.RefProb

open Cert.ReferenceIdeal Cert.ReferenceIdeal.Gen Cert.ReferenceIdeal.Read Cert.Som Idealize.ShloMosaic Idealize.ShloMosaic.ValueIdx

/-- A finite sum of real numbers, read in the extended reals, is the extended real of the sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A maximum taken from `⊥` over finitely many reals is `⊥` or a real. -/
theorem fold_max_bot_or_real {ι : Type} (s : Finset ι) (f : ι → ℝ) :
    s.fold max (⊥ : EReal) (fun i => ((f i : ℝ) : EReal)) = ⊥
      ∨ ∃ r : ℝ, s.fold max (⊥ : EReal) (fun i => ((f i : ℝ) : EReal)) = (r : EReal) := by
  classical
  induction s using Finset.induction_on with
  | empty => left; simp
  | insert a s ha ih =>
    right
    rw [Finset.fold_insert ha]
    rcases ih with h | ⟨r, h⟩
    · exact ⟨f a, by rw [h, max_eq_left bot_le]⟩
    · exact ⟨max (f a) r, by rw [h]; exact (EReal.coe_strictMono.monotone.map_max).symm⟩

/-- Over a nonempty set it is a real. -/
theorem fold_max_real {ι : Type} (s : Finset ι) (hs : s.Nonempty) (f : ι → ℝ) :
    ∃ r : ℝ, s.fold max (⊥ : EReal) (fun i => ((f i : ℝ) : EReal)) = (r : EReal) := by
  classical
  obtain ⟨a, ha⟩ := hs
  rw [← Finset.insert_erase ha, Finset.fold_insert (Finset.notMem_erase a s)]
  rcases fold_max_bot_or_real (s.erase a) f with h | ⟨r, h⟩
  · exact ⟨f a, by rw [h, max_eq_left bot_le]⟩
  · exact ⟨max (f a) r, by rw [h]; exact (EReal.coe_strictMono.monotone.map_max).symm⟩

theorem ninf_bits : Ideal.ofBits .f32 0xFF800000#32 = ⊥ := by simp [Ideal.ofBits, Ideal.ieee]

/-- The row maximum of the labels at neuron `n`: a maximum from `−∞` over the ten real logits. -/
theorem v26_fold (lr : S262144x10.Idx → ℝ) (n : Fin 262144) :
    val_main_v26 (F := Ideal) (up lr) (ix1 n)
      = (Finset.univ : Finset (Fin 10)).fold max (⊥ : EReal) (fun k => ((lr (ix2 n k) : ℝ) : EReal)) := by
  have h : S262144x10.Reduces [1] S262144 := by decide
  unfold val_main_v26
  rw [Host.reduce_eq_fold_single FloatOps.maximumf _ _ reducesTo_S262144x10_S262144_d1 h h_S_]
  rw [val_main_cst_5_apply, Ideal.ofBits_def, ninf_bits]
  have hf : (up lr ∘ h.lift (ix1 n)) = fun k : Fin 10 => ((lr (ix2 n k) : ℝ) : EReal) := by
    funext k
    show up lr (h.lift (ix1 n) k) = _
    rw [up_apply]
    exact congrArg (fun i => ((lr i : ℝ) : EReal))
      (funext fun a => Fin.ext (by match a with | ⟨0, _⟩ => rfl | ⟨1, _⟩ => rfl))
  rw [hf]
  rfl

/-- The reference's shift for neuron `n` — the maximum of `−∞` and the row maximum — is a real number. -/
theorem v28_real (lr : S262144x10.Idx → ℝ) (n : Fin 262144) :
    ∃ r : ℝ, val_main_v28 (F := Ideal) (up lr) (ix1 n) = (r : EReal) := by
  obtain ⟨r, hr⟩ := fold_max_real (Finset.univ : Finset (Fin 10)) ⟨0, Finset.mem_univ _⟩ (fun k => lr (ix2 n k))
  refine ⟨r, ?_⟩
  rw [val_main_v28_apply, val_main_v27_apply, val_main_cst_6_apply, v26_fold, hr, Ideal.maximumf_def,
    Ideal.ofBits_def, ninf_bits]
  exact max_eq_right bot_le

theorem rowmax_real (lr : S262144x10.Idx → ℝ) :
    ∃ R : Fin 262144 → ℝ, ∀ n, val_main_v28 (F := Ideal) (up lr) (ix1 n) = ((R n : ℝ) : EReal) := by
  choose R hR using v28_real lr
  exact ⟨R, hR⟩

/-- A softmax does not see a common real shift of its exponents. -/
theorem softmax_shift (l : Fin 10 → ℝ) (R : ℝ) (c : Fin 10) :
    Real.exp (l c - R) * (1 / ∑ c' : Fin 10, Real.exp (l c' - R)) = Real.exp (l c) / ∑ c' : Fin 10, Real.exp (l c') := by
  have h1 : ∀ a : ℝ, Real.exp (a - R) = Real.exp a * Real.exp (-R) := fun a => by
    rw [sub_eq_add_neg, Real.exp_add]
  simp only [h1]
  rw [← Finset.sum_mul, mul_one_div]
  exact mul_div_mul_right _ _ (Real.exp_pos _).ne'

/-- The shifted logit at `(n, c)`. -/
theorem v31_value (lr : S262144x10.Idx → ℝ) (R : Fin 262144 → ℝ)
    (hR : ∀ n, val_main_v28 (F := Ideal) (up lr) (ix1 n) = ((R n : ℝ) : EReal)) (n : Fin 262144) (c : Fin 10) :
    val_main_v31 (F := Ideal) (up lr) (ix2 n c) = ((lr (ix2 n c) - R n : ℝ) : EReal) := by
  have hi : idx_main_v29 (idx_main_v30 (ix2 n c)) = ix1 n :=
    funext fun a => Fin.ext (by match a with | ⟨0, _⟩ => rfl)
  rw [val_main_v31_apply, val_main_v30_apply, val_main_v29_apply, hi, hR, up_apply, Ideal.subf_def, EReal.coe_sub]

/-- Its exponential. -/
theorem v32_value (lr : S262144x10.Idx → ℝ) (R : Fin 262144 → ℝ)
    (hR : ∀ n, val_main_v28 (F := Ideal) (up lr) (ix1 n) = ((R n : ℝ) : EReal)) (n : Fin 262144) (c : Fin 10) :
    val_main_v32 (F := Ideal) (up lr) (ix2 n c) = ((Real.exp (lr (ix2 n c) - R n) : ℝ) : EReal) := by
  rw [val_main_v32_apply, v31_value lr R hR, Ideal.hostUnary_exp_def, Ideal.exp_coe]

/-- The row sum of the exponentials. -/
theorem v33_value (lr : S262144x10.Idx → ℝ) (R : Fin 262144 → ℝ)
    (hR : ∀ n, val_main_v28 (F := Ideal) (up lr) (ix1 n) = ((R n : ℝ) : EReal)) (n : Fin 262144) :
    val_main_v33 (F := Ideal) (up lr) (ix1 n) = ((∑ k : Fin 10, Real.exp (lr (ix2 n k) - R n) : ℝ) : EReal) := by
  rw [val_main_v33_apply, val_main_cst_7_apply, Ideal.ofBits_def, Ideal.ofBits_zero_f32, zero_add, ← coe_sum]
  refine Finset.sum_congr rfl fun k _ => ?_
  have hi : idx_main_v33 (ix1 n) k = ix2 n k :=
    funext fun a => Fin.ext (by match a with | ⟨0, _⟩ => rfl | ⟨1, _⟩ => rfl)
  rw [hi, v32_value lr R hR]

theorem prob_value (lr : S262144x10.Idx → ℝ) (n : Fin 262144) (c : Fin 10) :
    val_main_v36 (F := Ideal) (up lr) (ix2 n c) = ((prob lr n c : ℝ) : EReal) := by
  obtain ⟨R, hR⟩ := rowmax_real lr
  have hi : idx_main_v34 (idx_main_v35 (ix2 n c)) = ix1 n :=
    funext fun a => Fin.ext (by match a with | ⟨0, _⟩ => rfl)
  have hpos : (∑ k : Fin 10, Real.exp (lr (ix2 n k) - R n)) ≠ 0 :=
    (Finset.sum_pos (fun k _ => Real.exp_pos _) ⟨0, Finset.mem_univ _⟩).ne'
  rw [val_main_v36_apply, val_main_v35_apply, val_main_v34_apply, hi, v33_value lr R hR, v32_value lr R hR,
    Ideal.hostDivf_def, Ideal.div_coe hpos, ← EReal.coe_mul]
  exact congrArg _ (softmax_shift (fun k => lr (ix2 n k)) (R n) c)

end Cert.ReferenceIdeal.RefProb

end
-- ==== Proof.RefAct.lean ====
/-
  The reference's activation softmax, read index by index, is the softmax of the real scores.

  On real inputs the reference forms the negated squared distance −‖x_b − w_n‖² = s b n − ‖x_b‖², where
  s b n = 2·⟨x_b, w_n⟩ − ‖w_n‖² is the score; subtracts the row maximum over the neurons (a maximum of finitely many
  reals, hence a real); exponentiates; and divides by the row sum of the exponentials. A softmax does not see a
  common real shift of its exponents, so the quotient is e^{s b n} / Σ_n' e^{s b n'}.
-/
import proofs.«168898_g67370857005486_cont_9to1_m_986_7_alg».proof.Proof.Gen.ReferenceIdeal.Read
import proofs.«168898_g67370857005486_cont_9to1_m_986_7_alg».proof.Proof.Spec
import Mathlib.Analysis.SpecialFunctions.Exp
import Mathlib.Data.EReal.Basic

noncomputable section

namespace Cert.ReferenceIdeal.RefAct

open Cert.ReferenceIdeal Cert.ReferenceIdeal.Gen Cert.ReferenceIdeal.Read Cert.Som Idealize.ShloMosaic Idealize.ShloMosaic.ValueIdx

/-- A finite sum of real numbers read in the extended reals is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The pattern 0x40000000 is the number two. -/
theorem ofBits_two : Ideal.ofBits .f32 0x40000000#32 = ((2 : ℝ) : EReal) := by
  simp [Ideal.ofBits, Ideal.ieee]
  rw [← EReal.coe_mul]
  norm_num

/-- The pattern 0xFF800000 is −∞. -/
theorem ofBits_neg_inf : Ideal.ofBits .f32 0xFF800000#32 = (⊥ : EReal) := by
  simp [Ideal.ofBits, Ideal.ieee]

variable (xr : S64x128.Idx → ℝ) (wr : S262144x128.Idx → ℝ)

/-- The squared norm of row b of x, broadcast along the neurons. -/
theorem xsq_real (b : Fin 64) (n : Fin 262144) :
    val_main_v9 (F := Ideal) (up xr) (ix2 b n) = ((∑ d : Fin 128, xr (ix2 b d) * xr (ix2 b d) : ℝ) : EReal) := by
  rw [val_main_v9_apply, val_main_v2_apply, val_main_v1_apply, val_main_cst_apply]
  simp only [val_main_v0_apply, Ideal.mulf_def, Ideal.ofBits_def, Ideal.ofBits_zero_f32, zero_add]
  rw [← coe_sum]
  refine Finset.sum_congr rfl fun k _ => ?_
  have e : idx_main_v1 (idx_main_v2 (idx_main_v9 (ix2 b n))) k = ix2 b k :=
    funext fun a => Fin.ext (by match a with | ⟨0, _⟩ => rfl | ⟨1, _⟩ => rfl)
  rw [e, up_apply, ← EReal.coe_mul]

/-- The squared norm of row n of w, broadcast along the input rows. -/
theorem wsq_real (b : Fin 64) (n : Fin 262144) :
    val_main_v12 (F := Ideal) (up wr) (ix2 b n) = ((∑ d : Fin 128, wr (ix2 n d) * wr (ix2 n d) : ℝ) : EReal) := by
  rw [val_main_v12_apply, val_main_v11_apply, val_main_v4_apply, val_main_cst_0_apply]
  simp only [val_main_v3_apply, Ideal.mulf_def, Ideal.ofBits_def, Ideal.ofBits_zero_f32, zero_add]
  rw [← coe_sum]
  refine Finset.sum_congr rfl fun k _ => ?_
  have e : idx_main_v4 (idx_main_v11 (idx_main_v12 (ix2 b n))) k = ix2 n k :=
    funext fun a => Fin.ext (by match a with | ⟨0, _⟩ => rfl | ⟨1, _⟩ => rfl)
  rw [e, up_apply, ← EReal.coe_mul]

/-- The inner product of row b of x with row n of w. -/
theorem cross_real (b : Fin 64) (n : Fin 262144) :
    val_main_v6 (F := Ideal) (up xr) (up wr) (ix2 b n) = ((∑ d : Fin 128, xr (ix2 b d) * wr (ix2 n d) : ℝ) : EReal) := by
  rw [val_main_v6_apply, ← coe_sum]
  refine Finset.sum_congr rfl fun k _ => ?_
  rw [val_main_v5_apply]
  have el : lidx_main_v6 (ix2 b n) k = ix2 b k :=
    funext fun a => Fin.ext (by match a with | ⟨0, _⟩ => rfl | ⟨1, _⟩ => rfl)
  have er : idx_main_v5 (ridx_main_v6 (ix2 b n) k) = ix2 n k :=
    funext fun a => Fin.ext (by match a with | ⟨0, _⟩ => rfl | ⟨1, _⟩ => rfl)
  rw [el, er, up_apply, up_apply, ← EReal.coe_mul]

/-- The negated squared distance is the score less the squared norm of the input row. -/
theorem negd2_real (b : Fin 64) (n : Fin 262144) :
    val_main_v14 (F := Ideal) (up xr) (up wr) (ix2 b n)
      = ((score xr wr b n - ∑ d : Fin 128, xr (ix2 b d) * xr (ix2 b d) : ℝ) : EReal) := by
  rw [val_main_v14_apply, val_main_v13_apply, val_main_v10_apply, val_main_v8_apply, val_main_v7_apply,
    val_main_cst_1_apply, xsq_real, wsq_real, cross_real]
  simp only [Ideal.hostNegf_def, Ideal.negf_def, Ideal.addf_def, Ideal.subf_def, Ideal.mulf_def, Ideal.ofBits_def,
    ofBits_two]
  rw [← EReal.coe_mul, ← EReal.coe_sub, ← EReal.coe_add, ← EReal.coe_neg]
  unfold score
  congr 1
  ring

/-- A maximum-fold from −∞ over a nonempty finite set of real entries is a real. -/
theorem fold_max_bot_real {ι : Type*} (s : Finset ι) (hs : s.Nonempty) (f : ι → EReal) (g : ι → ℝ)
    (hf : ∀ i, f i = ((g i : ℝ) : EReal)) : ∃ r : ℝ, s.fold max (⊥ : EReal) f = ((r : ℝ) : EReal) := by
  induction hs using Finset.Nonempty.cons_induction with
  | singleton a => exact ⟨g a, by rw [Finset.fold_singleton, hf, max_eq_left bot_le]⟩
  | cons a s ha _ ih =>
    obtain ⟨r, hr⟩ := ih
    exact ⟨max (g a) r, by rw [Finset.fold_cons, hr, hf, EReal.coe_strictMono.monotone.map_max]⟩

/-- The row maximum of the negated squared distances over the neurons is a real. -/
theorem rowmax_real : ∃ R : Fin 64 → ℝ, ∀ b, val_main_v17 (F := Ideal) (up xr) (up wr) (ix1 b) = ((R b : ℝ) : EReal) := by
  have h : ∀ b : Fin 64, ∃ r : ℝ, val_main_v17 (F := Ideal) (up xr) (up wr) (ix1 b) = ((r : ℝ) : EReal) := by
    intro b
    have hR : S64x262144.Reduces [1] S64 := by decide
    have hfold : ∃ r : ℝ, val_main_v15 (F := Ideal) (up xr) (up wr) (ix1 b) = ((r : ℝ) : EReal) := by
      unfold val_main_v15
      rw [Host.reduce_eq_fold_single FloatOps.maximumf _ _ reducesTo_S64x262144_S64_d1 hR h_S_, val_main_cst_2_apply,
        Ideal.ofBits_def, ofBits_neg_inf]
      refine fold_max_bot_real Finset.univ ⟨⟨0, by decide⟩, Finset.mem_univ _⟩ _
        (fun k : Fin 262144 => score xr wr b k - ∑ d : Fin 128, xr (ix2 b d) * xr (ix2 b d)) fun k => ?_
      have e : hR.lift (ix1 b) k = ix2 b (⟨k.val, k.isLt⟩ : Fin 262144) :=
        funext fun a => Fin.ext (by match a with | ⟨0, _⟩ => rfl | ⟨1, _⟩ => rfl)
      show val_main_v14 (F := Ideal) (up xr) (up wr) (hR.lift (ix1 b) k) = _
      rw [e, negd2_real]
      rfl
    obtain ⟨r, hr⟩ := hfold
    refine ⟨r, ?_⟩
    rw [val_main_v17_apply, val_main_v16_apply, val_main_cst_3_apply, hr]
    simp only [Ideal.maximumf_def, Ideal.ofBits_def, ofBits_neg_inf]
    exact max_eq_right bot_le
  choose R hR using h
  exact ⟨R, hR⟩

/-- A softmax does not see a common real shift of its exponents. -/
theorem softmax_shift {ι : Type*} [Fintype ι] (f : ι → ℝ) (K : ℝ) (n : ι) :
    Real.exp (f n - K) / ∑ k, Real.exp (f k - K) = Real.exp (f n) / ∑ k, Real.exp (f k) := by
  simp only [Real.exp_sub]
  rw [← Finset.sum_div, div_div_div_cancel_right₀ (Real.exp_pos K).ne']

variable (R : Fin 64 → ℝ) (hR : ∀ b, val_main_v17 (F := Ideal) (up xr) (up wr) (ix1 b) = ((R b : ℝ) : EReal))

include hR

/-- The exponential of the shifted negated squared distance. -/
theorem expd_real (b : Fin 64) (n : Fin 262144) :
    val_main_v21 (F := Ideal) (up xr) (up wr) (ix2 b n)
      = ((Real.exp (score xr wr b n - (∑ d : Fin 128, xr (ix2 b d) * xr (ix2 b d)) - R b) : ℝ) : EReal) := by
  rw [val_main_v21_apply, val_main_v20_apply, val_main_v19_apply, val_main_v18_apply, negd2_real]
  have e : idx_main_v18 (idx_main_v19 (ix2 b n)) = ix1 b :=
    funext fun a => Fin.ext (by match a with | ⟨0, _⟩ => rfl)
  rw [e, hR]
  simp only [Ideal.hostUnary_exp_def, Ideal.subf_def]
  rw [← EReal.coe_sub, Ideal.exp_coe]

/-- The row sum of those exponentials, broadcast along the neurons. -/
theorem rowsum_real (b : Fin 64) (n : Fin 262144) :
    val_main_v24 (F := Ideal) (up xr) (up wr) (ix2 b n)
      = ((∑ k : Fin 262144, Real.exp (score xr wr b k - (∑ d : Fin 128, xr (ix2 b d) * xr (ix2 b d)) - R b) : ℝ) : EReal) := by
  rw [val_main_v24_apply, val_main_v23_apply, val_main_v22_apply, val_main_cst_4_apply, Ideal.ofBits_def,
    Ideal.ofBits_zero_f32, zero_add, ← coe_sum]
  refine Finset.sum_congr rfl fun k _ => ?_
  have e : idx_main_v22 (idx_main_v23 (idx_main_v24 (ix2 b n))) k = ix2 b k :=
    funext fun a => Fin.ext (by match a with | ⟨0, _⟩ => rfl | ⟨1, _⟩ => rfl)
  rw [e, expd_real xr wr R hR]

/-- The activation softmax under a chosen real row maximum. -/
theorem act_value_of (b : Fin 64) (n : Fin 262144) :
    val_main_v25 (F := Ideal) (up xr) (up wr) (ix2 b n)
      = ((Real.exp (score xr wr b n) / ∑ n' : Fin 262144, Real.exp (score xr wr b n') : ℝ) : EReal) := by
  rw [val_main_v25_apply, expd_real xr wr R hR, rowsum_real xr wr R hR, Ideal.hostDivf_def]
  have hpos : (0 : ℝ) < ∑ k : Fin 262144, Real.exp (score xr wr b k - (∑ d : Fin 128, xr (ix2 b d) * xr (ix2 b d)) - R b) :=
    Finset.sum_pos (fun k _ => Real.exp_pos _) Finset.univ_nonempty
  rw [Ideal.div_coe hpos.ne', ← EReal.coe_mul, mul_one_div]
  congr 1
  have := softmax_shift (fun k : Fin 262144 => score xr wr b k) ((∑ d : Fin 128, xr (ix2 b d) * xr (ix2 b d)) + R b) n
  simp only [← sub_sub] at this
  exact this

omit hR

/-- The reference's activation softmax, read at an index, is the softmax of the real scores. -/
theorem act_value (xr : S64x128.Idx → ℝ) (wr : S262144x128.Idx → ℝ) (b : Fin 64) (n : Fin 262144) :
    val_main_v25 (F := Ideal) (up xr) (up wr) (ix2 b n)
      = ((Real.exp (score xr wr b n) / ∑ n' : Fin 262144, Real.exp (score xr wr b n') : ℝ) : EReal) := by
  obtain ⟨R, hR⟩ := rowmax_real xr wr
  exact act_value_of xr wr R hR b n

end Cert.ReferenceIdeal.RefAct

end
-- ==== Proof.RefMix.lean ====
/-
  The reference's last operation: the mixture of the label distributions under the normalized score weights.

  The last operation contracts the normalized weights `e^{s b n} / Σ_n' e^{s b n'}` (a real array, by hypothesis) with
  the label distributions `prob n c` (a real array, by hypothesis) over the 262144 neurons. A sum of products of real
  entries read in the extended reals is the reading of the real sum, and the normalized form
  `Σ_n (e^{s b n} / Σ_n' e^{s b n'}) · prob n c` is the ratio `(Σ_n e^{s b n} · prob n c) / Σ_n e^{s b n}`.
-/
import proofs.«168898_g67370857005486_cont_9to1_m_986_7_alg».proof.Proof.Gen.ReferenceIdeal.Read
import proofs.«168898_g67370857005486_cont_9to1_m_986_7_alg».proof.Proof.RealAlg

noncomputable section

namespace Cert.ReferenceIdeal.RefMix

open Cert.ReferenceIdeal Cert.ReferenceIdeal.Read Cert.Som Idealize.ShloMosaic Idealize.ShloMosaic.ValueIdx

/-- The left operand of the contraction is read at row `b`, neuron `k`. -/
theorem lidx_eq (b : Fin 64) (c : Fin 10) (k : Fin 262144) : lidx_main_v37 (ix2 b c) k = ix2 b k :=
  funext fun a => Fin.ext (by match a with | ⟨0, _⟩ => rfl | ⟨1, _⟩ => rfl)

/-- The right operand of the contraction is read at neuron `k`, label `c`. -/
theorem ridx_eq (b : Fin 64) (c : Fin 10) (k : Fin 262144) : ridx_main_v37 (ix2 b c) k = ix2 k c :=
  funext fun a => Fin.ext (by match a with | ⟨0, _⟩ => rfl | ⟨1, _⟩ => rfl)

theorem ref_value_of (xr : S64x128.Idx → ℝ) (wr : S262144x128.Idx → ℝ) (lr : S262144x10.Idx → ℝ)
    (hp : ∀ (n : Fin 262144) (c : Fin 10), val_main_v36 (F := Ideal) (up lr) (ix2 n c) = ((prob lr n c : ℝ) : EReal))
    (ha : ∀ (b : Fin 64) (n : Fin 262144), val_main_v25 (F := Ideal) (up xr) (up wr) (ix2 b n) = ((Real.exp (score xr wr b n) / ∑ n' : Fin 262144, Real.exp (score xr wr b n') : ℝ) : EReal)) :
    val_main_v37 (F := Ideal) (up xr) (up wr) (up lr) = fun i : S64x10.Idx => ((out xr wr lr (i 0) (i 1) : ℝ) : EReal) := by
  funext i
  obtain ⟨b, c, rfl⟩ : ∃ (b : Fin 64) (c : Fin 10), i = ix2 b c := ⟨i 0, i 1, eq_ix2 i⟩
  show val_main_v37 (F := Ideal) (up xr) (up wr) (up lr) (ix2 b c) = ((out xr wr lr b c : ℝ) : EReal)
  have hterm : ∀ k : Fin 262144,
      (val_main_v25 (F := Ideal) (up xr) (up wr)) (lidx_main_v37 (ix2 b c) k) * (val_main_v36 (F := Ideal) (up lr)) (ridx_main_v37 (ix2 b c) k)
        = (((Real.exp (score xr wr b k) / ∑ n' : Fin 262144, Real.exp (score xr wr b n')) * prob lr k c : ℝ) : EReal) := by
    intro k
    rw [lidx_eq, ridx_eq, ha, hp, ← EReal.coe_mul]
  refine (val_main_v37_apply (up xr) (up wr) (up lr) (ix2 b c)).trans ?_
  refine (Finset.sum_congr (Eq.refl Finset.univ) fun k _ => hterm k).trans ?_
  refine (coe_sum Finset.univ _).symm.trans ?_
  refine congrArg (fun r : ℝ => (r : EReal)) ?_
  unfold out
  exact normalized_eq_ratio Finset.univ (fun n => score xr wr b n) (fun n => prob lr n c)

end Cert.ReferenceIdeal.RefMix

end
-- ==== Proof.Finite.lean ====
/-
  The precondition makes every input entry a real number.

  The precondition says, of each of the three inputs, that every entry `x` has `|x| < +∞`, conjoined over all entries
  and over the three inputs. Over the extended reals `|x| = max x (−x)`, and `max x (−x) < ⊤` excludes both `x = ⊤`
  and `x = ⊥`; what remains is a real number. So each input is the image of a real array.
-/
import proofs.«168898_g67370857005486_cont_9to1_m_986_7_alg».proof.Pre_finite_inputs
import proofs.«168898_g67370857005486_cont_9to1_m_986_7_alg».proof.Proof.Spec
import Idealize.ShloMosaic.Lib.ReduceAll
import Idealize.ShloMosaic.PureOps.Ideal
import Idealize.ShloMosaic.Lib.ValueIdx

noncomputable section

namespace Cert.Som.Finite

open Cert.Som Idealize.ShloMosaic

/-- The pattern of `+∞` denotes `⊤`. -/
theorem ofBits_inf : Ideal.ofBits .f32 0x7F800000#32 = ⊤ := by simp [Ideal.ofBits, Ideal.ieee]

/-- An entry with `|x| < +∞` is a real number. -/
theorem real_of_abs_lt_inf (x : Ideal .f32)
    (h : FloatOps.cmpf .olt (FloatOps.hostAbsf x) (FloatOps.ofBits (F := Ideal) .f32 0x7F800000#32) = 1#1) :
    ((x : EReal).toReal : EReal) = x := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  rw [max_lt_iff] at hlt
  refine EReal.coe_toReal (ne_of_lt hlt.1) ?_
  intro hb
  rw [hb] at hlt
  simp at hlt

instance : Subsingleton Cert.Pre_finite_inputs.S_.Idx := ⟨fun a b => funext fun d => d.elim0⟩

/-- The conjunction of `|a i| < +∞` over all entries of an array makes the array the image of a real array. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] hb (constant Cert.Pre_finite_inputs.S_ .f32 0x7F800000#32)))
          (constantI Cert.Pre_finite_inputs.S_ 1 1#1) hr hu ValueIdx.ix0 = 1#1) :
    ∃ r : s.Idx → ℝ, a = up r := by
  refine ⟨fun i => (a i : EReal).toReal, funext fun i => ?_⟩
  have hi := Host.reduce_andi_all _ _ hr hu ValueIdx.ix0 e i
  exact (real_of_abs_lt_inf (a i) hi).symm

theorem real_of_pre [Cert.Pre_finite_inputs.Facts] (a0 : FVec Ideal Cert.Pre_finite_inputs.S64x128 .f32) (a1 : FVec Ideal Cert.Pre_finite_inputs.S262144x128 .f32) (a2 : FVec Ideal Cert.Pre_finite_inputs.S262144x10 .f32)
    (h : Cert.Pre_finite_inputs.fn (F := Ideal) a0 a1 a2 = fun _ => 1#1) :
    ∃ (xr : SX.Idx → ℝ) (wr : SW.Idx → ℝ) (lr : SL.Idx → ℝ), a0 = up xr ∧ a1 = up wr ∧ a2 = up lr := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  obtain ⟨xr, hx⟩ := real_of_all a0 _ _ _ h0'
  obtain ⟨wr, hw⟩ := real_of_all a1 _ _ _ h1
  obtain ⟨lr, hl⟩ := real_of_all a2 _ _ _ h2
  exact ⟨xr, wr, lr, hx, hw, hl⟩

end Cert.Som.Finite

end
-- ==== Proof.lean ====
/-
  The certificate of the fused self-organizing-map forward pass.

  The kernel streams the 262144 neurons in 32 tiles of 8192 and keeps, per input row, a running maximum `m`, a running
  denominator `d = Σ e^{s − m}` and a running accumulator `acc = Σ e^{s − m}·prob` of the scores
  `s b n = 2·⟨x_b, w_n⟩ − ‖w_n‖²` seen so far; at each tile the old `d` and `acc` are multiplied by `e^{m_old − m_new}`,
  which re-expresses them at the new shift, and after the last tile the result is `acc / d`. The reference computes
  the squared distances `‖x_b‖² − s b n`, a softmax of their negatives over the neurons (shifted by the row maximum), a
  softmax of each neuron's ten label logits, and the product of the two. Over the reals a softmax does not see a common
  shift of its exponents — neither the row constant `‖x_b‖²`, nor a row maximum, nor the kernel's running or per-tile
  maxima — so both results are `(Σ_n e^{s b n}·prob n c) / Σ_n e^{s b n}`. The precondition makes every input entry a
  real number, so that every intermediate value is a real and these identities of real arithmetic apply; the only
  infinite value met is the initial running maximum `−∞`, whose correction factor is `e^{−∞} = 0` against the zero
  initial sums.
-/
import proofs.«168898_g67370857005486_cont_9to1_m_986_7_alg».proof.Defs
import proofs.«168898_g67370857005486_cont_9to1_m_986_7_alg».proof.Proof.Gen.Kernel
import proofs.«168898_g67370857005486_cont_9to1_m_986_7_alg».proof.Proof.Gen.Kernel.Skeleton
import proofs.«168898_g67370857005486_cont_9to1_m_986_7_alg».proof.Proof.Gen.Kernel.Launch
import proofs.«168898_g67370857005486_cont_9to1_m_986_7_alg».proof.Proof.Gen.Kernel.Points
import proofs.«168898_g67370857005486_cont_9to1_m_986_7_alg».proof.Proof.Gen.Kernel.Frame
import proofs.«168898_g67370857005486_cont_9to1_m_986_7_alg».proof.Proof.Gen.KernelIdeal
import proofs.«168898_g67370857005486_cont_9to1_m_986_7_alg».proof.Proof.Gen.KernelIdeal.Skeleton
import proofs.«168898_g67370857005486_cont_9to1_m_986_7_alg».proof.Proof.Gen.KernelIdeal.Launch
import proofs.«168898_g67370857005486_cont_9to1_m_986_7_alg».proof.Proof.Gen.KernelIdeal.Points
import proofs.«168898_g67370857005486_cont_9to1_m_986_7_alg».proof.Proof.Gen.KernelIdeal.Frame
import proofs.«168898_g67370857005486_cont_9to1_m_986_7_alg».proof.Proof.Gen.ReferenceIdeal
import proofs.«168898_g67370857005486_cont_9to1_m_986_7_alg».proof.Proof.Gen.Pre_finite_inputs
import proofs.«168898_g67370857005486_cont_9to1_m_986_7_alg».proof.Proof.Gen.KernelIdeal.Value
import proofs.«168898_g67370857005486_cont_9to1_m_986_7_alg».proof.Proof.Gen.ReferenceIdeal.Run
import proofs.«168898_g67370857005486_cont_9to1_m_986_7_alg».proof.Proof.Gen.ReferenceIdeal.Read
import proofs.«168898_g67370857005486_cont_9to1_m_986_7_alg».proof.Proof.KernelValue
import proofs.«168898_g67370857005486_cont_9to1_m_986_7_alg».proof.Proof.RefProb
import proofs.«168898_g67370857005486_cont_9to1_m_986_7_alg».proof.Proof.RefAct
import proofs.«168898_g67370857005486_cont_9to1_m_986_7_alg».proof.Proof.RefMix
import proofs.«168898_g67370857005486_cont_9to1_m_986_7_alg».proof.Proof.Finite
import Idealize.ShloMosaic.Adequacy
import Idealize.ShloMosaic.Init

noncomputable section

namespace Cert.Proof

open Idealize.ShloMosaic Idealize.ShloMosaic.TcCoe Idealize.SL.Sem Cert.Som

/-- The reference's result, from real inputs, is the mixture `out`. -/
theorem ref_value (xr : SX.Idx → ℝ) (wr : SW.Idx → ℝ) (lr : SL.Idx → ℝ) :
    Cert.ReferenceIdeal.Read.val_main_v37 (F := Ideal) (up xr) (up wr) (up lr)
      = fun i : SO.Idx => ((out xr wr lr (i 0) (i 1) : ℝ) : EReal) :=
  Cert.ReferenceIdeal.RefMix.ref_value_of xr wr lr (Cert.ReferenceIdeal.RefProb.prob_value lr) (Cert.ReferenceIdeal.RefAct.act_value xr wr)

theorem frame_k [Cert.Pre_finite_inputs.Facts] : Cert.frame_Kernel (hKernel := Cert.Kernel.Gen.facts) := fun m ρ _ => Cert.Kernel.Gen.frame m ρ

theorem frame_ki [Cert.Pre_finite_inputs.Facts] : Cert.frame_KernelIdeal (hKernelIdeal := Cert.KernelIdeal.Gen.facts) := fun m ρ _ => Cert.KernelIdeal.Gen.frame m ρ

theorem frame_ri [Cert.Pre_finite_inputs.Facts] : Cert.frame_ReferenceIdeal (hReferenceIdeal := Cert.ReferenceIdeal.Gen.facts) := fun m ρ _ =>
  (θ_run Cert.ReferenceIdeal.defs _ _).mono (fun _ h c => (h c).2) (Cert.ReferenceIdeal.Value.run (F := Ideal) m ρ)

/-- The one recorded rewrite: a narrowing to bf16 and back is the identity on extended reals. -/
theorem preserves : Cert.preserves_Kernel_KernelIdeal := IdealRules.truncf_extf.statement _ .f32 .bf16

/-- Both idealized programs end at the mixture `out` of the real inputs the precondition gives. -/
theorem algebraic [hP : Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' hpre hagree
  choose xr wr lr hx hw hl using fun c => Cert.Som.Finite.real_of_pre _ _ _ (hpre c)
  have h31 : (31 : ℕ) < Cert.KernelIdeal.cfg0.N := by rw [show Cert.KernelIdeal.cfg0.N = 32 from Cert.KernelIdeal.Gen.N_0]; decide
  refine ⟨fun c => fun i : SO.Idx => ((out (xr c) (wr c) (lr c) (i 0) (i 1) : ℝ) : EReal), ?_, ?_⟩
  · exact (θ_run Cert.KernelIdeal.defs _ _).mono
      (fun r h c => ⟨(h c).1.trans (Cert.KernelIdeal.SomValue.final m (xr c) (wr c) (lr c) c (hx c) (hw c) (hl c) h31), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v37_eq, (hagree c).1, (hagree c).2.1, (hagree c).2.2, hx c, hw c, hl c]
    exact ref_value (xr c) (wr c) (lr c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
